-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v66)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v66) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v80) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part2 {F : FTy → Type} [FloatOps F] (main_arg8 : FVec F S128x128 .f32) (main_arg9 : FVec F S128 .f32) (main_arg10 : FVec F S128x128 .f32) (main_v33 : IVec S_ 1) : IVec S_ 1 :=
  let main_v34 : FVec F S128x128 .f32 := Host.absf main_arg8
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x128 .f32 := Host.absf main_arg10
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  main_v48

def fn_part1 {F : FTy → Type} [FloatOps F] (main_arg5 : FVec F S128x128 .f32) (main_arg6 : FVec F S128 .f32) (main_arg7 : FVec F S128x128 .f32) (main_arg8 : FVec F S128x128 .f32) (main_arg9 : FVec F S128 .f32) (main_arg10 : FVec F S128x128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg8 main_arg9 main_arg10 main_v33

def fn {F : FTy → Type} [FloatOps F] (main_arg0 : FVec F S100000x128 .f32) (main_arg1 : IVec S2x1600000 32) (main_arg2 : FVec F S128x128 .f32) (main_arg3 : FVec F S128 .f32) (main_arg4 : FVec F S128x128 .f32) (main_arg5 : FVec F S128x128 .f32) (main_arg6 : FVec F S128 .f32) (main_arg7 : FVec F S128x128 .f32) (main_arg8 : FVec F S128x128 .f32) (main_arg9 : FVec F S128 .f32) (main_arg10 : FVec F S128x128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_arg8 main_arg9 main_arg10 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S100000 : Shape := ⟨1, ![100000]⟩
abbrev S100000x1 : Shape := ⟨2, ![100000, 1]⟩
abbrev S1x128 : Shape := ⟨2, ![1, 128]⟩
abbrev S5000x128 : Shape := ⟨2, ![5000, 128]⟩

abbrev nBuf : Space → Nat
  | .hbm => 96
  | .vmem => 27
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128x128, .f32⟩
  | .hbm, ⟨9, _⟩ => ⟨S128, .f32⟩
  | .hbm, ⟨10, _⟩ => ⟨S128x128, .f32⟩
  | .hbm, ⟨11, _⟩ => ⟨S1x1600000, .i32⟩
  | .hbm, ⟨12, _⟩ => ⟨S1600000, .i32⟩
  | .hbm, ⟨13, _⟩ => ⟨S1x1600000, .i32⟩
  | .hbm, ⟨14, _⟩ => ⟨S1600000, .i32⟩
  | .hbm, ⟨15, _⟩ => ⟨S_, .i32⟩
  | .hbm, ⟨16, _⟩ => ⟨S1600000, .i32⟩
  | .hbm, ⟨17, _⟩ => ⟨S1600000, .i1⟩
  | .hbm, ⟨18, _⟩ => ⟨S_, .i32⟩
  | .hbm, ⟨19, _⟩ => ⟨S1600000, .i32⟩
  | .hbm, ⟨20, _⟩ => ⟨S1600000, .i32⟩
  | .hbm, ⟨21, _⟩ => ⟨S1600000, .i32⟩
  | .hbm, ⟨22, _⟩ => ⟨S1600000x1, .i32⟩
  | .hbm, ⟨23, _⟩ => ⟨S1600000x128, .f32⟩
  | .hbm, ⟨24, _⟩ => ⟨S_, .f32⟩
  | .hbm, ⟨25, _⟩ => ⟨S100000x128, .f32⟩
  | .hbm, ⟨26, _⟩ => ⟨S1600000x1, .i32⟩
  | .hbm, ⟨27, _⟩ => ⟨S100000x128, .f32⟩
  | .hbm, ⟨28, _⟩ => ⟨S_, .f32⟩
  | .hbm, ⟨29, _⟩ => ⟨S1600000, .f32⟩
  | .hbm, ⟨30, _⟩ => ⟨S_, .f32⟩
  | .hbm, ⟨31, _⟩ => ⟨S100000, .f32⟩
  | .hbm, ⟨32, _⟩ => ⟨S1600000x1, .i32⟩
  | .hbm, ⟨33, _⟩ => ⟨S100000, .f32⟩
  | .hbm, ⟨34, _⟩ => ⟨S_, .f32⟩
  | .hbm, ⟨35, _⟩ => ⟨S100000, .f32⟩
  | .hbm, ⟨36, _⟩ => ⟨S100000, .f32⟩
  | .hbm, ⟨37, _⟩ => ⟨S100000x1, .f32⟩
  | .hbm, ⟨38, _⟩ => ⟨S100000x128, .f32⟩
  | .hbm, ⟨39, _⟩ => ⟨S100000x128, .f32⟩
  | .hbm, ⟨40, _⟩ => ⟨S1x128, .f32⟩
  | .hbm, ⟨41, _⟩ => ⟨S100000x128, .f32⟩
  | .hbm, ⟨42, _⟩ => ⟨S_, .i32⟩
  | .hbm, ⟨43, _⟩ => ⟨S1600000, .i32⟩
  | .hbm, ⟨44, _⟩ => ⟨S1600000, .i1⟩
  | .hbm, ⟨45, _⟩ => ⟨S_, .i32⟩
  | .hbm, ⟨46, _⟩ => ⟨S1600000, .i32⟩
  | .hbm, ⟨47, _⟩ => ⟨S1600000, .i32⟩
  | .hbm, ⟨48, _⟩ => ⟨S1600000, .i32⟩
  | .hbm, ⟨49, _⟩ => ⟨S1600000x1, .i32⟩
  | .hbm, ⟨50, _⟩ => ⟨S1600000x128, .f32⟩
  | .hbm, ⟨51, _⟩ => ⟨S_, .f32⟩
  | .hbm, ⟨52, _⟩ => ⟨S100000x128, .f32⟩
  | .hbm, ⟨53, _⟩ => ⟨S1600000x1, .i32⟩
  | .hbm, ⟨54, _⟩ => ⟨S100000x128, .f32⟩
  | .hbm, ⟨55, _⟩ => ⟨S_, .f32⟩
  | .hbm, ⟨56, _⟩ => ⟨S1600000, .f32⟩
  | .hbm, ⟨57, _⟩ => ⟨S_, .f32⟩
  | .hbm, ⟨58, _⟩ => ⟨S100000, .f32⟩
  | .hbm, ⟨59, _⟩ => ⟨S1600000x1, .i32⟩
  | .hbm, ⟨60, _⟩ => ⟨S100000, .f32⟩
  | .hbm, ⟨61, _⟩ => ⟨S_, .f32⟩
  | .hbm, ⟨62, _⟩ => ⟨S100000, .f32⟩
  | .hbm, ⟨63, _⟩ => ⟨S100000, .f32⟩
  | .hbm, ⟨64, _⟩ => ⟨S100000x1, .f32⟩
  | .hbm, ⟨65, _⟩ => ⟨S100000x128, .f32⟩
  | .hbm, ⟨66, _⟩ => ⟨S100000x128, .f32⟩
  | .hbm, ⟨67, _⟩ => ⟨S1x128, .f32⟩
  | .hbm, ⟨68, _⟩ => ⟨S100000x128, .f32⟩
  | .hbm, ⟨69, _⟩ => ⟨S_, .i32⟩
  | .hbm, ⟨70, _⟩ => ⟨S1600000, .i32⟩
  | .hbm, ⟨71, _⟩ => ⟨S1600000, .i1⟩
  | .hbm, ⟨72, _⟩ => ⟨S_, .i32⟩
  | .hbm, ⟨73, _⟩ => ⟨S1600000, .i32⟩
  | .hbm, ⟨74, _⟩ => ⟨S1600000, .i32⟩
  | .hbm, ⟨75, _⟩ => ⟨S1600000, .i32⟩
  | .hbm, ⟨76, _⟩ => ⟨S1600000x1, .i32⟩
  | .hbm, ⟨77, _⟩ => ⟨S1600000x128, .f32⟩
  | .hbm, ⟨78, _⟩ => ⟨S_, .f32⟩
  | .hbm, ⟨79, _⟩ => ⟨S100000x128, .f32⟩
  | .hbm, ⟨80, _⟩ => ⟨S1600000x1, .i32⟩
  | .hbm, ⟨81, _⟩ => ⟨S100000x128, .f32⟩
  | .hbm, ⟨82, _⟩ => ⟨S_, .f32⟩
  | .hbm, ⟨83, _⟩ => ⟨S1600000, .f32⟩
  | .hbm, ⟨84, _⟩ => ⟨S_, .f32⟩
  | .hbm, ⟨85, _⟩ => ⟨S100000, .f32⟩
  | .hbm, ⟨86, _⟩ => ⟨S1600000x1, .i32⟩
  | .hbm, ⟨87, _⟩ => ⟨S100000, .f32⟩
  | .hbm, ⟨88, _⟩ => ⟨S_, .f32⟩
  | .hbm, ⟨89, _⟩ => ⟨S100000, .f32⟩
  | .hbm, ⟨90, _⟩ => ⟨S100000, .f32⟩
  | .hbm, ⟨91, _⟩ => ⟨S100000x1, .f32⟩
  | .hbm, ⟨92, _⟩ => ⟨S100000x128, .f32⟩
  | .hbm, ⟨93, _⟩ => ⟨S100000x128, .f32⟩
  | .hbm, ⟨94, _⟩ => ⟨S1x128, .f32⟩
  | .hbm, ⟨95, _⟩ => ⟨S100000x128, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S1x128, .f32⟩
  | .local _ .vmem, ⟨6, _⟩ => ⟨S128x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S128x128, .f32⟩
  | .local _ .vmem, ⟨14, _⟩ => ⟨S1x128, .f32⟩
  | .local _ .vmem, ⟨15, _⟩ => ⟨S128x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S128x128, .f32⟩
  | .local _ .vmem, ⟨23, _⟩ => ⟨S1x128, .f32⟩
  | .local _ .vmem, ⟨24, _⟩ => ⟨S128x128, .f32⟩
  | .local _ .vmem, ⟨25, _⟩ => ⟨S5000x128, .f32⟩
  | .local _ .vmem, ⟨26, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_1 : Ref sig .tc := ⟨.hbm, 28, rfl⟩
abbrev main_v14 : Ref sig .tc := ⟨.hbm, 29, rfl⟩
abbrev main_cst_2 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst_3 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_c_4 : Ref sig .tc := ⟨.hbm, 42, rfl⟩
abbrev main_v25 : Ref sig .tc := ⟨.hbm, 43, rfl⟩
abbrev main_v26 : Ref sig .tc := ⟨.hbm, 44, rfl⟩
abbrev main_c_5 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_cst_6 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_cst_7 : Ref sig .tc := ⟨.hbm, 55, rfl⟩
abbrev main_v35 : Ref sig .tc := ⟨.hbm, 56, rfl⟩
abbrev main_cst_8 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_cst_9 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_c_10 : Ref sig .tc := ⟨.hbm, 69, rfl⟩
abbrev main_v46 : Ref sig .tc := ⟨.hbm, 70, rfl⟩
abbrev main_v47 : Ref sig .tc := ⟨.hbm, 71, rfl⟩
abbrev main_c_11 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_cst_12 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_cst_13 : Ref sig .tc := ⟨.hbm, 82, rfl⟩
abbrev main_v56 : Ref sig .tc := ⟨.hbm, 83, rfl⟩
abbrev main_cst_14 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_cst_15 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg5_1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem5_1 : DmaSem sig := 26

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S100000x128.size a
  hwx0_5 : ∀ i : grid0.Coords, EltTy.bits .f32 = 32 ∨ (Rect.block (s := S100000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S100000x128.size a
  hwx1_5 : ∀ i : grid1.Coords, EltTy.bits .f32 = 32 ∨ (Rect.block (s := S100000x128) S5000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S100000x128.size a
  hwx2_1 : ∀ i : grid2.Coords, EltTy.bits .f32 = 32 ∨ (Rect.block (s := S100000x128) S5000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .f32 = 32 ∨ (Rect.block (s := S128x128) S128x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x128.size a ≤ S100000x128.size a
  hwx2_5 : ∀ i : grid2.Coords, EltTy.bits .f32 = 32 ∨ (Rect.block (s := S100000x128) S5000x128.size (cc2_transform_5 i) (hinb2_5 i)).WholeWords (EltTy.packing .f32)

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v22) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v23) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v24) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v43) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v24) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v44) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v45) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v64) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v45) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg8) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v65) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg10) S128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v66) S5000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S100000 : Shape := ⟨1, ![100000]⟩
abbrev S100000x1 : Shape := ⟨2, ![100000, 1]⟩
abbrev S1x128 : Shape := ⟨2, ![1, 128]⟩

abbrev nBuf : Space → Nat
  | .hbm => 114
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128x128, .f32⟩
  | .hbm, ⟨9, _⟩ => ⟨S128, .f32⟩
  | .hbm, ⟨10, _⟩ => ⟨S128x128, .f32⟩
  | .hbm, ⟨11, _⟩ => ⟨S1x1600000, .i32⟩
  | .hbm, ⟨12, _⟩ => ⟨S1600000, .i32⟩
  | .hbm, ⟨13, _⟩ => ⟨S1x1600000, .i32⟩
  | .hbm, ⟨14, _⟩ => ⟨S1600000, .i32⟩
  | .hbm, ⟨15, _⟩ => ⟨S_, .i32⟩
  | .hbm, ⟨16, _⟩ => ⟨S1600000, .i32⟩
  | .hbm, ⟨17, _⟩ => ⟨S1600000, .i1⟩
  | .hbm, ⟨18, _⟩ => ⟨S_, .i32⟩
  | .hbm, ⟨19, _⟩ => ⟨S1600000, .i32⟩
  | .hbm, ⟨20, _⟩ => ⟨S1600000, .i32⟩
  | .hbm, ⟨21, _⟩ => ⟨S1600000, .i32⟩
  | .hbm, ⟨22, _⟩ => ⟨S1600000x1, .i32⟩
  | .hbm, ⟨23, _⟩ => ⟨S1600000x128, .f32⟩
  | .hbm, ⟨24, _⟩ => ⟨S_, .f32⟩
  | .hbm, ⟨25, _⟩ => ⟨S100000x128, .f32⟩
  | .hbm, ⟨26, _⟩ => ⟨S1600000x1, .i32⟩
  | .hbm, ⟨27, _⟩ => ⟨S100000x128, .f32⟩
  | .hbm, ⟨28, _⟩ => ⟨S_, .f32⟩
  | .hbm, ⟨29, _⟩ => ⟨S1600000, .f32⟩
  | .hbm, ⟨30, _⟩ => ⟨S_, .f32⟩
  | .hbm, ⟨31, _⟩ => ⟨S100000, .f32⟩
  | .hbm, ⟨32, _⟩ => ⟨S1600000x1, .i32⟩
  | .hbm, ⟨33, _⟩ => ⟨S100000, .f32⟩
  | .hbm, ⟨34, _⟩ => ⟨S_, .f32⟩
  | .hbm, ⟨35, _⟩ => ⟨S100000, .f32⟩
  | .hbm, ⟨36, _⟩ => ⟨S100000, .f32⟩
  | .hbm, ⟨37, _⟩ => ⟨S100000x1, .f32⟩
  | .hbm, ⟨38, _⟩ => ⟨S100000x128, .f32⟩
  | .hbm, ⟨39, _⟩ => ⟨S100000x128, .f32⟩
  | .hbm, ⟨40, _⟩ => ⟨S100000x128, .f32⟩
  | .hbm, ⟨41, _⟩ => ⟨S1x128, .f32⟩
  | .hbm, ⟨42, _⟩ => ⟨S100000x128, .f32⟩
  | .hbm, ⟨43, _⟩ => ⟨S100000x128, .f32⟩
  | .hbm, ⟨44, _⟩ => ⟨S100000x128, .f32⟩
  | .hbm, ⟨45, _⟩ => ⟨S100000x128, .f32⟩
  | .hbm, ⟨46, _⟩ => ⟨S_, .f32⟩
  | .hbm, ⟨47, _⟩ => ⟨S100000x128, .f32⟩
  | .hbm, ⟨48, _⟩ => ⟨S100000x128, .f32⟩
  | .hbm, ⟨49, _⟩ => ⟨S_, .i32⟩
  | .hbm, ⟨50, _⟩ => ⟨S1600000, .i32⟩
  | .hbm, ⟨51, _⟩ => ⟨S1600000, .i1⟩
  | .hbm, ⟨52, _⟩ => ⟨S_, .i32⟩
  | .hbm, ⟨53, _⟩ => ⟨S1600000, .i32⟩
  | .hbm, ⟨54, _⟩ => ⟨S1600000, .i32⟩
  | .hbm, ⟨55, _⟩ => ⟨S1600000, .i32⟩
  | .hbm, ⟨56, _⟩ => ⟨S1600000x1, .i32⟩
  | .hbm, ⟨57, _⟩ => ⟨S1600000x128, .f32⟩
  | .hbm, ⟨58, _⟩ => ⟨S_, .f32⟩
  | .hbm, ⟨59, _⟩ => ⟨S100000x128, .f32⟩
  | .hbm, ⟨60, _⟩ => ⟨S1600000x1, .i32⟩
  | .hbm, ⟨61, _⟩ => ⟨S100000x128, .f32⟩
  | .hbm, ⟨62, _⟩ => ⟨S_, .f32⟩
  | .hbm, ⟨63, _⟩ => ⟨S1600000, .f32⟩
  | .hbm, ⟨64, _⟩ => ⟨S_, .f32⟩
  | .hbm, ⟨65, _⟩ => ⟨S100000, .f32⟩
  | .hbm, ⟨66, _⟩ => ⟨S1600000x1, .i32⟩
  | .hbm, ⟨67, _⟩ => ⟨S100000, .f32⟩
  | .hbm, ⟨68, _⟩ => ⟨S_, .f32⟩
  | .hbm, ⟨69, _⟩ => ⟨S100000, .f32⟩
  | .hbm, ⟨70, _⟩ => ⟨S100000, .f32⟩
  | .hbm, ⟨71, _⟩ => ⟨S100000x1, .f32⟩
  | .hbm, ⟨72, _⟩ => ⟨S100000x128, .f32⟩
  | .hbm, ⟨73, _⟩ => ⟨S100000x128, .f32⟩
  | .hbm, ⟨74, _⟩ => ⟨S100000x128, .f32⟩
  | .hbm, ⟨75, _⟩ => ⟨S1x128, .f32⟩
  | .hbm, ⟨76, _⟩ => ⟨S100000x128, .f32⟩
  | .hbm, ⟨77, _⟩ => ⟨S100000x128, .f32⟩
  | .hbm, ⟨78, _⟩ => ⟨S100000x128, .f32⟩
  | .hbm, ⟨79, _⟩ => ⟨S100000x128, .f32⟩
  | .hbm, ⟨80, _⟩ => ⟨S_, .f32⟩
  | .hbm, ⟨81, _⟩ => ⟨S100000x128, .f32⟩
  | .hbm, ⟨82, _⟩ => ⟨S100000x128, .f32⟩
  | .hbm, ⟨83, _⟩ => ⟨S_, .i32⟩
  | .hbm, ⟨84, _⟩ => ⟨S1600000, .i32⟩
  | .hbm, ⟨85, _⟩ => ⟨S1600000, .i1⟩
  | .hbm, ⟨86, _⟩ => ⟨S_, .i32⟩
  | .hbm, ⟨87, _⟩ => ⟨S1600000, .i32⟩
  | .hbm, ⟨88, _⟩ => ⟨S1600000, .i32⟩
  | .hbm, ⟨89, _⟩ => ⟨S1600000, .i32⟩
  | .hbm, ⟨90, _⟩ => ⟨S1600000x1, .i32⟩
  | .hbm, ⟨91, _⟩ => ⟨S1600000x128, .f32⟩
  | .hbm, ⟨92, _⟩ => ⟨S_, .f32⟩
  | .hbm, ⟨93, _⟩ => ⟨S100000x128, .f32⟩
  | .hbm, ⟨94, _⟩ => ⟨S1600000x1, .i32⟩
  | .hbm, ⟨95, _⟩ => ⟨S100000x128, .f32⟩
  | .hbm, ⟨96, _⟩ => ⟨S_, .f32⟩
  | .hbm, ⟨97, _⟩ => ⟨S1600000, .f32⟩
  | .hbm, ⟨98, _⟩ => ⟨S_, .f32⟩
  | .hbm, ⟨99, _⟩ => ⟨S100000, .f32⟩
  | .hbm, ⟨100, _⟩ => ⟨S1600000x1, .i32⟩
  | .hbm, ⟨101, _⟩ => ⟨S100000, .f32⟩
  | .hbm, ⟨102, _⟩ => ⟨S_, .f32⟩
  | .hbm, ⟨103, _⟩ => ⟨S100000, .f32⟩
  | .hbm, ⟨104, _⟩ => ⟨S100000, .f32⟩
  | .hbm, ⟨105, _⟩ => ⟨S100000x1, .f32⟩
  | .hbm, ⟨106, _⟩ => ⟨S100000x128, .f32⟩
  | .hbm, ⟨107, _⟩ => ⟨S100000x128, .f32⟩
  | .hbm, ⟨108, _⟩ => ⟨S100000x128, .f32⟩
  | .hbm, ⟨109, _⟩ => ⟨S1x128, .f32⟩
  | .hbm, ⟨110, _⟩ => ⟨S100000x128, .f32⟩
  | .hbm, ⟨111, _⟩ => ⟨S100000x128, .f32⟩
  | .hbm, ⟨112, _⟩ => ⟨S100000x128, .f32⟩
  | .hbm, ⟨113, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_1 : Ref sig .tc := ⟨.hbm, 28, rfl⟩
abbrev main_v14 : Ref sig .tc := ⟨.hbm, 29, rfl⟩
abbrev main_cst_2 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst_3 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_call0_cst : Ref sig .tc := ⟨.hbm, 46, rfl⟩
abbrev main_call0_v0 : Ref sig .tc := ⟨.hbm, 47, rfl⟩
abbrev main_v29 : Ref sig .tc := ⟨.hbm, 48, rfl⟩
abbrev main_c_4 : Ref sig .tc := ⟨.hbm, 49, rfl⟩
abbrev main_v30 : Ref sig .tc := ⟨.hbm, 50, rfl⟩
abbrev main_v31 : Ref sig .tc := ⟨.hbm, 51, rfl⟩
abbrev main_c_5 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_cst_6 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_cst_7 : Ref sig .tc := ⟨.hbm, 62, rfl⟩
abbrev main_v40 : Ref sig .tc := ⟨.hbm, 63, rfl⟩
abbrev main_cst_8 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_cst_9 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_call1_cst : Ref sig .tc := ⟨.hbm, 80, rfl⟩
abbrev main_call1_v0 : Ref sig .tc := ⟨.hbm, 81, rfl⟩
abbrev main_v55 : Ref sig .tc := ⟨.hbm, 82, rfl⟩
abbrev main_c_10 : Ref sig .tc := ⟨.hbm, 83, rfl⟩
abbrev main_v56 : Ref sig .tc := ⟨.hbm, 84, rfl⟩
abbrev main_v57 : Ref sig .tc := ⟨.hbm, 85, rfl⟩
abbrev main_c_11 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_cst_12 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_cst_13 : Ref sig .tc := ⟨.hbm, 96, rfl⟩
abbrev main_v66 : Ref sig .tc := ⟨.hbm, 97, rfl⟩
abbrev main_cst_14 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_cst_15 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S100000x128_S128x128_S100000x128_1_0_0_1_n_n_wf : DotDims.WF S100000x128 S128x128 S100000x128 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.Spec.lean ====
/-
  One layer of the network as a function of whole arrays, index by index, on the extended reals.

  A layer takes the aggregated neighbour features `A` and the node features `H` (both 100000 × 128), two weight
  matrices `Wl`, `Wr` (128 × 128) and a bias row `b` (128 entries), and gives at node `p`, feature `q`
      act ((∑ₖ A[p,k] · Wl[k,q]  +  b[q])  +  ∑ₖ H[p,k] · Wr[k,q]),
  with the additions grouped in this order. `act` is `relu0`, the maximum with the zero word's value, in the two
  inner layers and the identity in the last.
-/
import Idealize.ShloMosaic.PureOps.Ideal
import Idealize.ShloMosaic.PureOps.Ideal.Laws
import Idealize.ShloMosaic.Lib.ValueIdx

noncomputable section

namespace Cert.Sage

open Idealize.ShloMosaic Idealize.ShloMosaic.ValueIdx

/-- Node features: 100000 nodes, 128 features each. -/
abbrev SN : Shape := ⟨2, ![100000, 128]⟩
/-- A weight matrix: 128 × 128. -/
abbrev SW : Shape := ⟨2, ![128, 128]⟩

/-- The activation of the inner layers: the larger of the value and the f32 zero word's value. -/
def relu0 (v : EReal) : EReal := max v (Ideal.ofBits .f32 0x00000000#32)

/-- The linear part of a layer at node `p`, feature `q`: the aggregated row times `Wl`, plus the bias, plus the
    node's own row times `Wr`. -/
def linAt (A H : SN.Idx → EReal) (Wl Wr : SW.Idx → EReal) (b : Fin 128 → EReal) (p : Fin 100000) (q : Fin 128) : EReal :=
  ((∑ k : Fin 128, A (ix2 p k) * Wl (ix2 k q)) + b q) + ∑ k : Fin 128, H (ix2 p k) * Wr (ix2 k q)

/-- A whole layer: the activation of the linear part at every node and feature. -/
def layer (act : EReal → EReal) (A H : SN.Idx → EReal) (Wl Wr : SW.Idx → EReal) (b : Fin 128 → EReal) : SN.Idx → EReal :=
  fun i => act (linAt A H Wl Wr b ⟨(i 0).val, (i 0).isLt⟩ ⟨(i 1).val, (i 1).isLt⟩)

theorem layer_apply (act : EReal → EReal) (A H : SN.Idx → EReal) (Wl Wr : SW.Idx → EReal) (b : Fin 128 → EReal)
    (p : Fin 100000) (q : Fin 128) : layer act A H Wl Wr b (ix2 p q) = act (linAt A H Wl Wr b p q) := rfl

end Cert.Sage

end
-- ==== Proof.KBody.lean ====
/-
  The three kernel bodies read at an index, on the extended reals.

  Each body loads a 5000-row block `x0` of the aggregated features and the matching block `x1` of the node features,
  the two weight matrices and the bias row; rounds the four matrix operands to bfloat16 (the identity on the extended
  reals); and stores
      act ((x0 · wl + b) + x1 · wr),
  each product a tile matmul into a zero accumulator. At row `p`, feature `q` of the block a tile matmul into zero is
  the plain sum over the 128 contracted coordinates, so the stored value is the layer's formula on the block's rows.
  The first two bodies end with the maximum against zero; the third stores the sum itself.
-/
import proofs.«112585_j5463198401302_1_alg».proof.Proof.Gen.KernelIdeal.Skeleton
import proofs.«112585_j5463198401302_1_alg».proof.Proof.Spec
import Idealize.ShloMosaic.Lib.ValueIdx
import Idealize.ShloMosaic.Lib.Pipeline.Value
import Idealize.ShloMosaic.PureOps.Ideal.Laws

noncomputable section

namespace Cert.KernelIdeal.Body

open Cert.KernelIdeal Cert.KernelIdeal.Gen Idealize.ShloMosaic Idealize.ShloMosaic.ValueIdx Cert.Sage

/-! ## The tile matmul's operand indices -/

theorem lhs_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem rhs_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem rhs_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- A tile matmul into the zero accumulator, at row `p` and column `q` of the tile: the sum over the contracted
    coordinate of the left operand's row entry times the right operand's column entry. -/
theorem tile_matmul_apply {φ₁ φ₂ : FTy} (l : FVec Ideal S5000x128 φ₁) (r : FVec Ideal S128x128 φ₂) (p : Fin 5000) (q : Fin 128) :
    matmul dot_S5000x128_S128x128_S5000x128_1_0_0_1_n_n none l r (constant S5000x128 .f32 0x00000000#32) (ix2 p q)
      = ∑ k : Fin 128, l (ix2 p k) * r (ix2 k q) := by
  show FloatOps.matmul dot_S5000x128_S128x128_S5000x128_1_0_0_1_n_n none l r (constant S5000x128 .f32 0x00000000#32) (ix2 p q) = _
  rw [Ideal.matmul_constant_zero_apply, ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q) ((contrEquiv1 dot_S5000x128_S128x128_S5000x128_1_0_0_1_n_n 128 rfl rfl).symm k) = ix2 p k := funext fun a => Fin.ext (by
    match a with
    | ⟨0, _⟩ => exact lhs_0 _ _
    | ⟨1, _⟩ => exact (lhs_1 _ _).trans hk)
  have er : dot_S5000x128_S128x128_S5000x128_1_0_0_1_n_n.rhsIdx (ix2 p q) ((contrEquiv1 dot_S5000x128_S128x128_S5000x128_1_0_0_1_n_n 128 rfl rfl).symm k) = ix2 k q := funext fun a => Fin.ext (by
    match a with
    | ⟨0, _⟩ => exact (rhs_0 _ _).trans hk
    | ⟨1, _⟩ => exact rhs_1 _ _)
  rw [el, er]

/-- The bias row broadcast down the tile's rows, at row `p`, column `q`: the row's entry `q`. -/
theorem bias_apply (b : FVec Ideal S1x128 .f32) (p : Fin 5000) (q : Fin 128) :
    broadcastTo S5000x128 b broadcasts_S1x128_S5000x128 (ix2 p q) = b (ix2 0 q) := by
  refine broadcastTo_apply b broadcasts_S1x128_S5000x128 (ix2 p q) (ix2 0 q) (fun a => ?_)
  match a with
  | ⟨0, _⟩ => rfl
  | ⟨1, _⟩ => rfl

/-! ## The payloads -/

/-- The sum the three bodies share, at row `p`, column `q` of the tile. -/
def tileLin (x0 x1 : Vec Ideal S5000x128 .f32) (wl wr : Vec Ideal S128x128 .f32) (b : Vec Ideal S1x128 .f32) (p : Fin 5000) (q : Fin 128) : EReal :=
  ((∑ k : Fin 128, x0 (ix2 p k) * wl (ix2 k q)) + b (ix2 0 q)) + ∑ k : Fin 128, x1 (ix2 p k) * wr (ix2 k q)

/-- The first body's stored value at row `p`, column `q`: the shared sum, then the maximum with zero. -/
theorem pay0_apply (x0 x1 : Vec Ideal S5000x128 .f32) (wl wr : Vec Ideal S128x128 .f32) (b : Vec Ideal S1x128 .f32) (p : Fin 5000) (q : Fin 128) :
    k0_pay1 (F := Ideal) x0 x1 wl wr b (ix2 p q) = relu0 (tileLin x0 x1 wl wr b p q) := by
  unfold k0_pay1
  simp only [shapeCast_self]
  show max ((matmul _ none _ _ _ (ix2 p q) + broadcastTo S5000x128 _ _ (ix2 p q)) + matmul _ none _ _ _ (ix2 p q)) (Ideal.ofBits .f32 0x00000000#32) = _
  rw [tile_matmul_apply, tile_matmul_apply, bias_apply]
  rfl

/-- The second body's stored value: the same. -/
theorem pay1_apply (x0 x1 : Vec Ideal S5000x128 .f32) (wl wr : Vec Ideal S128x128 .f32) (b : Vec Ideal S1x128 .f32) (p : Fin 5000) (q : Fin 128) :
    k1_pay1 (F := Ideal) x0 x1 wl wr b (ix2 p q) = relu0 (tileLin x0 x1 wl wr b p q) := by
  unfold k1_pay1
  simp only [shapeCast_self]
  show max ((matmul _ none _ _ _ (ix2 p q) + broadcastTo S5000x128 _ _ (ix2 p q)) + matmul _ none _ _ _ (ix2 p q)) (Ideal.ofBits .f32 0x00000000#32) = _
  rw [tile_matmul_apply, tile_matmul_apply, bias_apply]
  rfl

/-- The third body's stored value: the shared sum itself. -/
theorem pay2_apply (x0 x1 : Vec Ideal S5000x128 .f32) (wl wr : Vec Ideal S128x128 .f32) (b : Vec Ideal S1x128 .f32) (p : Fin 5000) (q : Fin 128) :
    k2_pay1 (F := Ideal) x0 x1 wl wr b (ix2 p q) = tileLin x0 x1 wl wr b p q := by
  unfold k2_pay1
  simp only [shapeCast_self]
  show (matmul _ none _ _ _ (ix2 p q) + broadcastTo S5000x128 _ _ (ix2 p q)) + matmul _ none _ _ _ (ix2 p q) = _
  rw [tile_matmul_apply, tile_matmul_apply, bias_apply]
  rfl

/-! ## A tile of rows of the whole arrays -/

/-- If the two loaded blocks are rows `5000·n + ·` of whole arrays `A`, `H` (through an embedding `e` of the tile's
    indices that shifts the row and keeps the column), then a tile value that is `act` of the shared sum is the
    layer's value at the embedded index: the sums over the contracted coordinate read the same entries of `A`, `H`. -/
theorem block_layer (act : EReal → EReal) (pay : Vec Ideal S5000x128 .f32)
    (x0 x1 : Vec Ideal S5000x128 .f32) (wl wr : Vec Ideal S128x128 .f32) (b : Vec Ideal S1x128 .f32)
    (hpay : ∀ (p : Fin 5000) (q : Fin 128), pay (ix2 p q) = act (tileLin x0 x1 wl wr b p q))
    (A H : SN.Idx → EReal) (Wl Wr : SW.Idx → EReal) (B : S1x128.Idx → EReal) (n : Nat) (e : S5000x128.Idx → SN.Idx)
    (he0 : ∀ y, (e y 0).val = 5000 * n + (y 0).val) (he1 : ∀ y, (e y 1).val = (y 1).val)
    (h0 : ∀ y, x0 y = A (e y)) (h1 : ∀ y, x1 y = H (e y)) (hl : wl = Wl) (hr : wr = Wr) (hb : b = B)
    (y : S5000x128.Idx) :
    pay y = layer act A H Wl Wr (fun q => B (ix2 0 q)) (e y) := by
  subst hl hr hb
  obtain ⟨p, q, rfl⟩ : ∃ (p : Fin 5000) (q : Fin 128), y = ix2 p q := ⟨y 0, y 1, eq_ix2 y⟩
  rw [hpay]
  unfold layer linAt tileLin
  generalize hP : (⟨(e (ix2 p q) 0).val, (e (ix2 p q) 0).isLt⟩ : Fin 100000) = P
  have hPv : P.val = 5000 * n + p.val := by rw [← hP]; exact he0 (ix2 p q)
  have hq : (⟨(e (ix2 p q) 1).val, (e (ix2 p q) 1).isLt⟩ : Fin 128) = q := Fin.ext (he1 (ix2 p q))
  have hrow : ∀ k : Fin 128, e (ix2 p k) = ix2 P k := fun k =>
    funext fun a => Fin.ext (by
      match a with
      | ⟨0, _⟩ => exact (he0 (ix2 p k)).trans hPv.symm
      | ⟨1, _⟩ => exact he1 (ix2 p k))
  rw [hq]
  simp only [h0, h1, hrow]

end Cert.KernelIdeal.Body

end
-- ==== Proof.KRegion0.lean ====
/-
  Launch 0 as a function of whole arrays.

  The launch walks the 100000 rows in 20 blocks of 5000. At block `t` it loads rows `5000·t … 5000·t + 4999` of the
  aggregated features and of the node features, the whole of both weight matrices and the bias row, and writes the same
  rows of its result. So block `t` of the result is the layer's value on those rows, the 20 blocks tile the array, and
  the result array ends as the layer with the zero-clamped activation applied to the arrays the launch found on entry.
-/
import proofs.«112585_j5463198401302_1_alg».proof.Proof.Gen.KernelIdeal.Frame
import proofs.«112585_j5463198401302_1_alg».proof.Proof.KBody
import Idealize.ShloMosaic.Lib.Pipeline.Value

set_option maxRecDepth 16384

noncomputable section

namespace Cert.KernelIdeal.Region0

open Cert.KernelIdeal Cert.KernelIdeal.Gen Cert.KernelIdeal.Body Cert.Sage
open Idealize.ShloMosaic Idealize.ShloMosaic.ValueIdx Idealize.ShloMosaic.TcCoe Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the 20 grid points: the two row-blocked inputs and the output sit at block row `t`,
    the weights and the bias at block 0. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- The output block's embedding shifts the row by `5000·t` … -/
theorem emb_row (t : Fin cfg0.N) (y : S5000x128.Idx) : ((((cfg0.win 5).blk t).view.emb y) 0).val = 5000 * t.val + (y 0).val := by
  obtain ⟨e0, e1, e2, e3, e4, e5, e6, e7, e8, e9, e10, e11⟩ := idx_facts t
  show win0_5.index t (0 : Fin 2) * 5000 + 1 * (y 0).val = _
  omega
/-- … and keeps the column. -/
theorem emb_col (t : Fin cfg0.N) (y : S5000x128.Idx) : ((((cfg0.win 5).blk t).view.emb y) 1).val = (y 1).val := by
  obtain ⟨e0, e1, e2, e3, e4, e5, e6, e7, e8, e9, e10, e11⟩ := idx_facts t
  show win0_5.index t (1 : Fin 2) * 128 + 1 * (y 1).val = _
  omega

/-- Input window 0's block at point `t` is rows `5000·t + ·` of its array: the same rows the output's block covers. -/
theorem rows0 (c : Dev nD) (t : Fin cfg0.N) (y : S5000x128.Idx) :
    iblk0 V c 0 t y = V c main_v22 (((cfg0.win 5).blk t).view.emb y) := by
  obtain ⟨e0, e1, e2, e3, e4, e5, e6, e7, e8, e9, e10, e11⟩ := idx_facts t
  show V c main_v22 (((cfg0.win 0).blk t).view.emb y) = V c main_v22 (((cfg0.win 5).blk t).view.emb y)
  refine congrArg (V c main_v22) (funext fun a => Fin.ext ?_)
  match a with
  | ⟨0, _⟩ => show win0_0.index t (0 : Fin 2) * 5000 + 1 * (y 0).val = win0_5.index t (0 : Fin 2) * 5000 + 1 * (y 0).val; omega
  | ⟨1, _⟩ => show win0_0.index t (1 : Fin 2) * 128 + 1 * (y 1).val = win0_5.index t (1 : Fin 2) * 128 + 1 * (y 1).val; omega

/-- Input window 1's block at point `t` is rows `5000·t + ·` of its array: the same rows the output's block covers. -/
theorem rows1 (c : Dev nD) (t : Fin cfg0.N) (y : S5000x128.Idx) :
    iblk0 V c 1 t y = V c main_arg0 (((cfg0.win 5).blk t).view.emb y) := by
  obtain ⟨e0, e1, e2, e3, e4, e5, e6, e7, e8, e9, e10, e11⟩ := idx_facts t
  show V c main_arg0 (((cfg0.win 1).blk t).view.emb y) = V c main_arg0 (((cfg0.win 5).blk t).view.emb y)
  refine congrArg (V c main_arg0) (funext fun a => Fin.ext ?_)
  match a with
  | ⟨0, _⟩ => show win0_1.index t (0 : Fin 2) * 5000 + 1 * (y 0).val = win0_5.index t (0 : Fin 2) * 5000 + 1 * (y 0).val; omega
  | ⟨1, _⟩ => show win0_1.index t (1 : Fin 2) * 128 + 1 * (y 1).val = win0_5.index t (1 : Fin 2) * 128 + 1 * (y 1).val; omega

/-- Input window 2's one block is its whole array (the left weight matrix), at every point. -/
theorem whole2 (c : Dev nD) (t : Fin cfg0.N) : iblk0 V c 2 t = V c main_arg2 := by
  obtain ⟨e0, e1, e2, e3, e4, e5, e6, e7, e8, e9, e10, e11⟩ := idx_facts t
  funext y
  show V c main_arg2 (((cfg0.win 2).blk t).view.emb y) = V c main_arg2 y
  refine congrArg (V c main_arg2) (funext fun a => Fin.ext ?_)
  match a with
  | ⟨0, _⟩ => show win0_2.index t (0 : Fin 2) * 128 + 1 * (y 0).val = (y 0).val; omega
  | ⟨1, _⟩ => show win0_2.index t (1 : Fin 2) * 128 + 1 * (y 1).val = (y 1).val; omega

/-- Input window 3's one block is its whole array (the bias row), at every point. -/
theorem whole3 (c : Dev nD) (t : Fin cfg0.N) : iblk0 V c 3 t = V c main_v23 := by
  obtain ⟨e0, e1, e2, e3, e4, e5, e6, e7, e8, e9, e10, e11⟩ := idx_facts t
  funext y
  show V c main_v23 (((cfg0.win 3).blk t).view.emb y) = V c main_v23 y
  refine congrArg (V c main_v23) (funext fun a => Fin.ext ?_)
  match a with
  | ⟨0, _⟩ => show win0_3.index t (0 : Fin 2) * 1 + 1 * (y 0).val = (y 0).val; omega
  | ⟨1, _⟩ => show win0_3.index t (1 : Fin 2) * 128 + 1 * (y 1).val = (y 1).val; omega

/-- Input window 4's one block is its whole array (the right weight matrix), at every point. -/
theorem whole4 (c : Dev nD) (t : Fin cfg0.N) : iblk0 V c 4 t = V c main_arg4 := by
  obtain ⟨e0, e1, e2, e3, e4, e5, e6, e7, e8, e9, e10, e11⟩ := idx_facts t
  funext y
  show V c main_arg4 (((cfg0.win 4).blk t).view.emb y) = V c main_arg4 y
  refine congrArg (V c main_arg4) (funext fun a => Fin.ext ?_)
  match a with
  | ⟨0, _⟩ => show win0_4.index t (0 : Fin 2) * 128 + 1 * (y 0).val = (y 0).val; omega
  | ⟨1, _⟩ => show win0_4.index t (1 : Fin 2) * 128 + 1 * (y 1).val = (y 1).val; omega

/-- What point `t` writes back is block `t` of the layer of the arrays as the launch finds them. -/
theorem flushed_eq (c : Dev nD) (t : Fin cfg0.N) :
    (dat0 V c).flushed 5 t = ((cfg0.win 5).blk t).view.read (Elt Ideal)
      (layer relu0 (V c main_v22) (V c main_arg0) (V c main_arg2) (V c main_arg4) (fun q => V c main_v23 (ix2 0 q))) := by
  show (cfg0.win 5).cut (grid0.coords t) ((dat0 V c).after 5 t) = _
  rw [after0_5]
  unfold out0_5
  rw [View.canon_unit_zero hz]
  simp only [View.ld_unit_zero (S := S5000x128) hz, View.ld_unit_zero (S := S128x128) hz, View.ld_unit_zero (S := S1x128) hz]
  funext j
  show k0_pay1 (iblk0 V c 0 t) (iblk0 V c 1 t) (iblk0 V c 2 t) (iblk0 V c 4 t) (iblk0 V c 3 t) j
    = layer relu0 (V c main_v22) (V c main_arg0) (V c main_arg2) (V c main_arg4) (fun q => V c main_v23 (ix2 0 q)) (((cfg0.win 5).blk t).view.emb j)
  exact block_layer relu0 (k0_pay1 (iblk0 V c 0 t) (iblk0 V c 1 t) (iblk0 V c 2 t) (iblk0 V c 4 t) (iblk0 V c 3 t))
    (iblk0 V c 0 t) (iblk0 V c 1 t) (iblk0 V c 2 t) (iblk0 V c 4 t) (iblk0 V c 3 t)
    (pay0_apply (iblk0 V c 0 t) (iblk0 V c 1 t) (iblk0 V c 2 t) (iblk0 V c 4 t) (iblk0 V c 3 t))
    (V c main_v22) (V c main_arg0) (V c main_arg2) (V c main_arg4) (V c main_v23) t.val (fun y => ((cfg0.win 5).blk t).view.emb y)
    (emb_row t) (emb_col t) (rows0 V c t) (rows1 V c t) (whole2 V c t) (whole4 V c t) (whole3 V c t) j

/-- An index of the result array is in point `t`'s block iff each coordinate is in the block's range on its axis. -/
theorem mem_blk (t : Fin cfg0.N) (i : S100000x128.Idx) :
    i ∈ ((cfg0.win 5).blk t).view.set ↔ ∀ a : Fin 2, win0_5.index t a * S5000x128.size a ≤ (i a).val ∧ (i a).val < win0_5.index t a * S5000x128.size a + S5000x128.size a := by
  show i ∈ ((View.whole main_v24).slice (win0_5.rect t)).set ↔ _
  rw [View.set_slice_whole, Rect.mem_set_unit]
  exact Iff.rfl

/-- The 20 blocks tile the 100000 rows: row `r` is in block `r / 5000`. -/
theorem cover (i : S100000x128.Idx) : ∃ t : Fin cfg0.N, (cfg0.win 5).flush t = true ∧ i ∈ ((cfg0.win 5).blk t).view.set := by
  have hi0 : (i 0).val < 100000 := (i 0).isLt
  have hi1 : (i 1).val < 128 := (i 1).isLt
  refine ⟨⟨(i 0).val / 5000, by show (i 0).val / 5000 < 20; omega⟩, flush0_5 _, ?_⟩
  rw [mem_blk]
  obtain ⟨e0, e1, e2, e3, e4, e5, e6, e7, e8, e9, e10, e11⟩ := idx_facts ⟨(i 0).val / 5000, by show (i 0).val / 5000 < 20; omega⟩
  have e10' : win0_5.index ⟨(i 0).val / 5000, by show (i 0).val / 5000 < 20; omega⟩ (0 : Fin 2) = (i 0).val / 5000 := e10
  intro a
  match a with
  | ⟨0, _⟩ => show win0_5.index _ (0 : Fin 2) * 5000 ≤ (i 0).val ∧ (i 0).val < win0_5.index _ (0 : Fin 2) * 5000 + 5000; omega
  | ⟨1, _⟩ => show win0_5.index _ (1 : Fin 2) * 128 ≤ (i 1).val ∧ (i 1).val < win0_5.index _ (1 : Fin 2) * 128 + 128; omega

/-- THE RESULT ARRAY after the launch: the layer of the arrays the launch found on entry. -/
theorem final (c : Dev nD) :
    (dat0 V c).arrAt 5 cfg0.N
      = layer relu0 (V c main_v22) (V c main_arg0) (V c main_arg2) (V c main_arg4) (fun q => V c main_v23 (ix2 0 q)) :=
  (dat0 V c).arrAt_eq_of_cover 5 _ (fun t _ => flushed_eq V c t) (cover)

end Cert.KernelIdeal.Region0

end
-- ==== Proof.KRegion1.lean ====
/-
  Launch 1 as a function of whole arrays.

  The launch walks the 100000 rows in 20 blocks of 5000. At block `t` it loads rows `5000·t … 5000·t + 4999` of the
  aggregated features and of the node features, the whole of both weight matrices and the bias row, and writes the same
  rows of its result. So block `t` of the result is the layer's value on those rows, the 20 blocks tile the array, and
  the result array ends as the layer with the zero-clamped activation applied to the arrays the launch found on entry.
-/
import proofs.«112585_j5463198401302_1_alg».proof.Proof.Gen.KernelIdeal.Frame
import proofs.«112585_j5463198401302_1_alg».proof.Proof.KBody
import Idealize.ShloMosaic.Lib.Pipeline.Value

set_option maxRecDepth 16384

noncomputable section

namespace Cert.KernelIdeal.Region1

open Cert.KernelIdeal Cert.KernelIdeal.Gen Cert.KernelIdeal.Body Cert.Sage
open Idealize.ShloMosaic Idealize.ShloMosaic.ValueIdx Idealize.ShloMosaic.TcCoe Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the 20 grid points: the two row-blocked inputs and the output sit at block row `t`,
    the weights and the bias at block 0. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- The output block's embedding shifts the row by `5000·t` … -/
theorem emb_row (t : Fin cfg1.N) (y : S5000x128.Idx) : ((((cfg1.win 5).blk t).view.emb y) 0).val = 5000 * t.val + (y 0).val := by
  obtain ⟨e0, e1, e2, e3, e4, e5, e6, e7, e8, e9, e10, e11⟩ := idx_facts t
  show win1_5.index t (0 : Fin 2) * 5000 + 1 * (y 0).val = _
  omega
/-- … and keeps the column. -/
theorem emb_col (t : Fin cfg1.N) (y : S5000x128.Idx) : ((((cfg1.win 5).blk t).view.emb y) 1).val = (y 1).val := by
  obtain ⟨e0, e1, e2, e3, e4, e5, e6, e7, e8, e9, e10, e11⟩ := idx_facts t
  show win1_5.index t (1 : Fin 2) * 128 + 1 * (y 1).val = _
  omega

/-- Input window 0's block at point `t` is rows `5000·t + ·` of its array: the same rows the output's block covers. -/
theorem rows0 (c : Dev nD) (t : Fin cfg1.N) (y : S5000x128.Idx) :
    iblk1 V c 0 t y = V c main_v43 (((cfg1.win 5).blk t).view.emb y) := by
  obtain ⟨e0, e1, e2, e3, e4, e5, e6, e7, e8, e9, e10, e11⟩ := idx_facts t
  show V c main_v43 (((cfg1.win 0).blk t).view.emb y) = V c main_v43 (((cfg1.win 5).blk t).view.emb y)
  refine congrArg (V c main_v43) (funext fun a => Fin.ext ?_)
  match a with
  | ⟨0, _⟩ => show win1_0.index t (0 : Fin 2) * 5000 + 1 * (y 0).val = win1_5.index t (0 : Fin 2) * 5000 + 1 * (y 0).val; omega
  | ⟨1, _⟩ => show win1_0.index t (1 : Fin 2) * 128 + 1 * (y 1).val = win1_5.index t (1 : Fin 2) * 128 + 1 * (y 1).val; omega

/-- Input window 1's block at point `t` is rows `5000·t + ·` of its array: the same rows the output's block covers. -/
theorem rows1 (c : Dev nD) (t : Fin cfg1.N) (y : S5000x128.Idx) :
    iblk1 V c 1 t y = V c main_v24 (((cfg1.win 5).blk t).view.emb y) := by
  obtain ⟨e0, e1, e2, e3, e4, e5, e6, e7, e8, e9, e10, e11⟩ := idx_facts t
  show V c main_v24 (((cfg1.win 1).blk t).view.emb y) = V c main_v24 (((cfg1.win 5).blk t).view.emb y)
  refine congrArg (V c main_v24) (funext fun a => Fin.ext ?_)
  match a with
  | ⟨0, _⟩ => show win1_1.index t (0 : Fin 2) * 5000 + 1 * (y 0).val = win1_5.index t (0 : Fin 2) * 5000 + 1 * (y 0).val; omega
  | ⟨1, _⟩ => show win1_1.index t (1 : Fin 2) * 128 + 1 * (y 1).val = win1_5.index t (1 : Fin 2) * 128 + 1 * (y 1).val; omega

/-- Input window 2's one block is its whole array (the left weight matrix), at every point. -/
theorem whole2 (c : Dev nD) (t : Fin cfg1.N) : iblk1 V c 2 t = V c main_arg5 := by
  obtain ⟨e0, e1, e2, e3, e4, e5, e6, e7, e8, e9, e10, e11⟩ := idx_facts t
  funext y
  show V c main_arg5 (((cfg1.win 2).blk t).view.emb y) = V c main_arg5 y
  refine congrArg (V c main_arg5) (funext fun a => Fin.ext ?_)
  match a with
  | ⟨0, _⟩ => show win1_2.index t (0 : Fin 2) * 128 + 1 * (y 0).val = (y 0).val; omega
  | ⟨1, _⟩ => show win1_2.index t (1 : Fin 2) * 128 + 1 * (y 1).val = (y 1).val; omega

/-- Input window 3's one block is its whole array (the bias row), at every point. -/
theorem whole3 (c : Dev nD) (t : Fin cfg1.N) : iblk1 V c 3 t = V c main_v44 := by
  obtain ⟨e0, e1, e2, e3, e4, e5, e6, e7, e8, e9, e10, e11⟩ := idx_facts t
  funext y
  show V c main_v44 (((cfg1.win 3).blk t).view.emb y) = V c main_v44 y
  refine congrArg (V c main_v44) (funext fun a => Fin.ext ?_)
  match a with
  | ⟨0, _⟩ => show win1_3.index t (0 : Fin 2) * 1 + 1 * (y 0).val = (y 0).val; omega
  | ⟨1, _⟩ => show win1_3.index t (1 : Fin 2) * 128 + 1 * (y 1).val = (y 1).val; omega

/-- Input window 4's one block is its whole array (the right weight matrix), at every point. -/
theorem whole4 (c : Dev nD) (t : Fin cfg1.N) : iblk1 V c 4 t = V c main_arg7 := by
  obtain ⟨e0, e1, e2, e3, e4, e5, e6, e7, e8, e9, e10, e11⟩ := idx_facts t
  funext y
  show V c main_arg7 (((cfg1.win 4).blk t).view.emb y) = V c main_arg7 y
  refine congrArg (V c main_arg7) (funext fun a => Fin.ext ?_)
  match a with
  | ⟨0, _⟩ => show win1_4.index t (0 : Fin 2) * 128 + 1 * (y 0).val = (y 0).val; omega
  | ⟨1, _⟩ => show win1_4.index t (1 : Fin 2) * 128 + 1 * (y 1).val = (y 1).val; omega

/-- What point `t` writes back is block `t` of the layer of the arrays as the launch finds them. -/
theorem flushed_eq (c : Dev nD) (t : Fin cfg1.N) :
    (dat1 V c).flushed 5 t = ((cfg1.win 5).blk t).view.read (Elt Ideal)
      (layer relu0 (V c main_v43) (V c main_v24) (V c main_arg5) (V c main_arg7) (fun q => V c main_v44 (ix2 0 q))) := by
  show (cfg1.win 5).cut (grid1.coords t) ((dat1 V c).after 5 t) = _
  rw [after1_5]
  unfold out1_5
  rw [View.canon_unit_zero hz]
  simp only [View.ld_unit_zero (S := S5000x128) hz, View.ld_unit_zero (S := S128x128) hz, View.ld_unit_zero (S := S1x128) hz]
  funext j
  show k1_pay1 (iblk1 V c 0 t) (iblk1 V c 1 t) (iblk1 V c 2 t) (iblk1 V c 4 t) (iblk1 V c 3 t) j
    = layer relu0 (V c main_v43) (V c main_v24) (V c main_arg5) (V c main_arg7) (fun q => V c main_v44 (ix2 0 q)) (((cfg1.win 5).blk t).view.emb j)
  exact block_layer relu0 (k1_pay1 (iblk1 V c 0 t) (iblk1 V c 1 t) (iblk1 V c 2 t) (iblk1 V c 4 t) (iblk1 V c 3 t))
    (iblk1 V c 0 t) (iblk1 V c 1 t) (iblk1 V c 2 t) (iblk1 V c 4 t) (iblk1 V c 3 t)
    (pay1_apply (iblk1 V c 0 t) (iblk1 V c 1 t) (iblk1 V c 2 t) (iblk1 V c 4 t) (iblk1 V c 3 t))
    (V c main_v43) (V c main_v24) (V c main_arg5) (V c main_arg7) (V c main_v44) t.val (fun y => ((cfg1.win 5).blk t).view.emb y)
    (emb_row t) (emb_col t) (rows0 V c t) (rows1 V c t) (whole2 V c t) (whole4 V c t) (whole3 V c t) j

/-- An index of the result array is in point `t`'s block iff each coordinate is in the block's range on its axis. -/
theorem mem_blk (t : Fin cfg1.N) (i : S100000x128.Idx) :
    i ∈ ((cfg1.win 5).blk t).view.set ↔ ∀ a : Fin 2, win1_5.index t a * S5000x128.size a ≤ (i a).val ∧ (i a).val < win1_5.index t a * S5000x128.size a + S5000x128.size a := by
  show i ∈ ((View.whole main_v45).slice (win1_5.rect t)).set ↔ _
  rw [View.set_slice_whole, Rect.mem_set_unit]
  exact Iff.rfl

/-- The 20 blocks tile the 100000 rows: row `r` is in block `r / 5000`. -/
theorem cover (i : S100000x128.Idx) : ∃ t : Fin cfg1.N, (cfg1.win 5).flush t = true ∧ i ∈ ((cfg1.win 5).blk t).view.set := by
  have hi0 : (i 0).val < 100000 := (i 0).isLt
  have hi1 : (i 1).val < 128 := (i 1).isLt
  refine ⟨⟨(i 0).val / 5000, by show (i 0).val / 5000 < 20; omega⟩, flush1_5 _, ?_⟩
  rw [mem_blk]
  obtain ⟨e0, e1, e2, e3, e4, e5, e6, e7, e8, e9, e10, e11⟩ := idx_facts ⟨(i 0).val / 5000, by show (i 0).val / 5000 < 20; omega⟩
  have e10' : win1_5.index ⟨(i 0).val / 5000, by show (i 0).val / 5000 < 20; omega⟩ (0 : Fin 2) = (i 0).val / 5000 := e10
  intro a
  match a with
  | ⟨0, _⟩ => show win1_5.index _ (0 : Fin 2) * 5000 ≤ (i 0).val ∧ (i 0).val < win1_5.index _ (0 : Fin 2) * 5000 + 5000; omega
  | ⟨1, _⟩ => show win1_5.index _ (1 : Fin 2) * 128 ≤ (i 1).val ∧ (i 1).val < win1_5.index _ (1 : Fin 2) * 128 + 128; omega

/-- THE RESULT ARRAY after the launch: the layer of the arrays the launch found on entry. -/
theorem final (c : Dev nD) :
    (dat1 V c).arrAt 5 cfg1.N
      = layer relu0 (V c main_v43) (V c main_v24) (V c main_arg5) (V c main_arg7) (fun q => V c main_v44 (ix2 0 q)) :=
  (dat1 V c).arrAt_eq_of_cover 5 _ (fun t _ => flushed_eq V c t) (cover)

end Cert.KernelIdeal.Region1

end
-- ==== Proof.KRegion2.lean ====
/-
  Launch 2 as a function of whole arrays.

  The launch walks the 100000 rows in 20 blocks of 5000. At block `t` it loads rows `5000·t … 5000·t + 4999` of the
  aggregated features and of the node features, the whole of both weight matrices and the bias row, and writes the same
  rows of its result. So block `t` of the result is the layer's value on those rows, the 20 blocks tile the array, and
  the result array ends as the layer without activation applied to the arrays the launch found on entry.
-/
import proofs.«112585_j5463198401302_1_alg».proof.Proof.Gen.KernelIdeal.Frame
import proofs.«112585_j5463198401302_1_alg».proof.Proof.KBody
import Idealize.ShloMosaic.Lib.Pipeline.Value

set_option maxRecDepth 16384

noncomputable section

namespace Cert.KernelIdeal.Region2

open Cert.KernelIdeal Cert.KernelIdeal.Gen Cert.KernelIdeal.Body Cert.Sage
open Idealize.ShloMosaic Idealize.ShloMosaic.ValueIdx Idealize.ShloMosaic.TcCoe Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the 20 grid points: the two row-blocked inputs and the output sit at block row `t`,
    the weights and the bias at block 0. -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- The output block's embedding shifts the row by `5000·t` … -/
theorem emb_row (t : Fin cfg2.N) (y : S5000x128.Idx) : ((((cfg2.win 5).blk t).view.emb y) 0).val = 5000 * t.val + (y 0).val := by
  obtain ⟨e0, e1, e2, e3, e4, e5, e6, e7, e8, e9, e10, e11⟩ := idx_facts t
  show win2_5.index t (0 : Fin 2) * 5000 + 1 * (y 0).val = _
  omega
/-- … and keeps the column. -/
theorem emb_col (t : Fin cfg2.N) (y : S5000x128.Idx) : ((((cfg2.win 5).blk t).view.emb y) 1).val = (y 1).val := by
  obtain ⟨e0, e1, e2, e3, e4, e5, e6, e7, e8, e9, e10, e11⟩ := idx_facts t
  show win2_5.index t (1 : Fin 2) * 128 + 1 * (y 1).val = _
  omega

/-- Input window 0's block at point `t` is rows `5000·t + ·` of its array: the same rows the output's block covers. -/
theorem rows0 (c : Dev nD) (t : Fin cfg2.N) (y : S5000x128.Idx) :
    iblk2 V c 0 t y = V c main_v64 (((cfg2.win 5).blk t).view.emb y) := by
  obtain ⟨e0, e1, e2, e3, e4, e5, e6, e7, e8, e9, e10, e11⟩ := idx_facts t
  show V c main_v64 (((cfg2.win 0).blk t).view.emb y) = V c main_v64 (((cfg2.win 5).blk t).view.emb y)
  refine congrArg (V c main_v64) (funext fun a => Fin.ext ?_)
  match a with
  | ⟨0, _⟩ => show win2_0.index t (0 : Fin 2) * 5000 + 1 * (y 0).val = win2_5.index t (0 : Fin 2) * 5000 + 1 * (y 0).val; omega
  | ⟨1, _⟩ => show win2_0.index t (1 : Fin 2) * 128 + 1 * (y 1).val = win2_5.index t (1 : Fin 2) * 128 + 1 * (y 1).val; omega

/-- Input window 1's block at point `t` is rows `5000·t + ·` of its array: the same rows the output's block covers. -/
theorem rows1 (c : Dev nD) (t : Fin cfg2.N) (y : S5000x128.Idx) :
    iblk2 V c 1 t y = V c main_v45 (((cfg2.win 5).blk t).view.emb y) := by
  obtain ⟨e0, e1, e2, e3, e4, e5, e6, e7, e8, e9, e10, e11⟩ := idx_facts t
  show V c main_v45 (((cfg2.win 1).blk t).view.emb y) = V c main_v45 (((cfg2.win 5).blk t).view.emb y)
  refine congrArg (V c main_v45) (funext fun a => Fin.ext ?_)
  match a with
  | ⟨0, _⟩ => show win2_1.index t (0 : Fin 2) * 5000 + 1 * (y 0).val = win2_5.index t (0 : Fin 2) * 5000 + 1 * (y 0).val; omega
  | ⟨1, _⟩ => show win2_1.index t (1 : Fin 2) * 128 + 1 * (y 1).val = win2_5.index t (1 : Fin 2) * 128 + 1 * (y 1).val; omega

/-- Input window 2's one block is its whole array (the left weight matrix), at every point. -/
theorem whole2 (c : Dev nD) (t : Fin cfg2.N) : iblk2 V c 2 t = V c main_arg8 := by
  obtain ⟨e0, e1, e2, e3, e4, e5, e6, e7, e8, e9, e10, e11⟩ := idx_facts t
  funext y
  show V c main_arg8 (((cfg2.win 2).blk t).view.emb y) = V c main_arg8 y
  refine congrArg (V c main_arg8) (funext fun a => Fin.ext ?_)
  match a with
  | ⟨0, _⟩ => show win2_2.index t (0 : Fin 2) * 128 + 1 * (y 0).val = (y 0).val; omega
  | ⟨1, _⟩ => show win2_2.index t (1 : Fin 2) * 128 + 1 * (y 1).val = (y 1).val; omega

/-- Input window 3's one block is its whole array (the bias row), at every point. -/
theorem whole3 (c : Dev nD) (t : Fin cfg2.N) : iblk2 V c 3 t = V c main_v65 := by
  obtain ⟨e0, e1, e2, e3, e4, e5, e6, e7, e8, e9, e10, e11⟩ := idx_facts t
  funext y
  show V c main_v65 (((cfg2.win 3).blk t).view.emb y) = V c main_v65 y
  refine congrArg (V c main_v65) (funext fun a => Fin.ext ?_)
  match a with
  | ⟨0, _⟩ => show win2_3.index t (0 : Fin 2) * 1 + 1 * (y 0).val = (y 0).val; omega
  | ⟨1, _⟩ => show win2_3.index t (1 : Fin 2) * 128 + 1 * (y 1).val = (y 1).val; omega

/-- Input window 4's one block is its whole array (the right weight matrix), at every point. -/
theorem whole4 (c : Dev nD) (t : Fin cfg2.N) : iblk2 V c 4 t = V c main_arg10 := by
  obtain ⟨e0, e1, e2, e3, e4, e5, e6, e7, e8, e9, e10, e11⟩ := idx_facts t
  funext y
  show V c main_arg10 (((cfg2.win 4).blk t).view.emb y) = V c main_arg10 y
  refine congrArg (V c main_arg10) (funext fun a => Fin.ext ?_)
  match a with
  | ⟨0, _⟩ => show win2_4.index t (0 : Fin 2) * 128 + 1 * (y 0).val = (y 0).val; omega
  | ⟨1, _⟩ => show win2_4.index t (1 : Fin 2) * 128 + 1 * (y 1).val = (y 1).val; omega

/-- What point `t` writes back is block `t` of the layer of the arrays as the launch finds them. -/
theorem flushed_eq (c : Dev nD) (t : Fin cfg2.N) :
    (dat2 V c).flushed 5 t = ((cfg2.win 5).blk t).view.read (Elt Ideal)
      (layer id (V c main_v64) (V c main_v45) (V c main_arg8) (V c main_arg10) (fun q => V c main_v65 (ix2 0 q))) := by
  show (cfg2.win 5).cut (grid2.coords t) ((dat2 V c).after 5 t) = _
  rw [after2_5]
  unfold out2_5
  rw [View.canon_unit_zero hz]
  simp only [View.ld_unit_zero (S := S5000x128) hz, View.ld_unit_zero (S := S128x128) hz, View.ld_unit_zero (S := S1x128) hz]
  funext j
  show k2_pay1 (iblk2 V c 0 t) (iblk2 V c 1 t) (iblk2 V c 2 t) (iblk2 V c 4 t) (iblk2 V c 3 t) j
    = layer id (V c main_v64) (V c main_v45) (V c main_arg8) (V c main_arg10) (fun q => V c main_v65 (ix2 0 q)) (((cfg2.win 5).blk t).view.emb j)
  exact block_layer id (k2_pay1 (iblk2 V c 0 t) (iblk2 V c 1 t) (iblk2 V c 2 t) (iblk2 V c 4 t) (iblk2 V c 3 t))
    (iblk2 V c 0 t) (iblk2 V c 1 t) (iblk2 V c 2 t) (iblk2 V c 4 t) (iblk2 V c 3 t)
    (pay2_apply (iblk2 V c 0 t) (iblk2 V c 1 t) (iblk2 V c 2 t) (iblk2 V c 4 t) (iblk2 V c 3 t))
    (V c main_v64) (V c main_v45) (V c main_arg8) (V c main_arg10) (V c main_v65) t.val (fun y => ((cfg2.win 5).blk t).view.emb y)
    (emb_row t) (emb_col t) (rows0 V c t) (rows1 V c t) (whole2 V c t) (whole4 V c t) (whole3 V c t) j

/-- An index of the result array is in point `t`'s block iff each coordinate is in the block's range on its axis. -/
theorem mem_blk (t : Fin cfg2.N) (i : S100000x128.Idx) :
    i ∈ ((cfg2.win 5).blk t).view.set ↔ ∀ a : Fin 2, win2_5.index t a * S5000x128.size a ≤ (i a).val ∧ (i a).val < win2_5.index t a * S5000x128.size a + S5000x128.size a := by
  show i ∈ ((View.whole main_v66).slice (win2_5.rect t)).set ↔ _
  rw [View.set_slice_whole, Rect.mem_set_unit]
  exact Iff.rfl

/-- The 20 blocks tile the 100000 rows: row `r` is in block `r / 5000`. -/
theorem cover (i : S100000x128.Idx) : ∃ t : Fin cfg2.N, (cfg2.win 5).flush t = true ∧ i ∈ ((cfg2.win 5).blk t).view.set := by
  have hi0 : (i 0).val < 100000 := (i 0).isLt
  have hi1 : (i 1).val < 128 := (i 1).isLt
  refine ⟨⟨(i 0).val / 5000, by show (i 0).val / 5000 < 20; omega⟩, flush2_5 _, ?_⟩
  rw [mem_blk]
  obtain ⟨e0, e1, e2, e3, e4, e5, e6, e7, e8, e9, e10, e11⟩ := idx_facts ⟨(i 0).val / 5000, by show (i 0).val / 5000 < 20; omega⟩
  have e10' : win2_5.index ⟨(i 0).val / 5000, by show (i 0).val / 5000 < 20; omega⟩ (0 : Fin 2) = (i 0).val / 5000 := e10
  intro a
  match a with
  | ⟨0, _⟩ => show win2_5.index _ (0 : Fin 2) * 5000 ≤ (i 0).val ∧ (i 0).val < win2_5.index _ (0 : Fin 2) * 5000 + 5000; omega
  | ⟨1, _⟩ => show win2_5.index _ (1 : Fin 2) * 128 ≤ (i 1).val ∧ (i 1).val < win2_5.index _ (1 : Fin 2) * 128 + 128; omega

/-- THE RESULT ARRAY after the launch: the layer of the arrays the launch found on entry. -/
theorem final (c : Dev nD) :
    (dat2 V c).arrAt 5 cfg2.N
      = layer id (V c main_v64) (V c main_v45) (V c main_arg8) (V c main_arg10) (fun q => V c main_v65 (ix2 0 q)) :=
  (dat2 V c).arrAt_eq_of_cover 5 _ (fun t _ => flushed_eq V c t) (cover)

end Cert.KernelIdeal.Region2

end
-- ==== Proof.Agg.lean ====
/-
  The neighbour aggregation both programs apply before every layer, as one function.

  From the edge list `ei` (2 × 1600000 integers) the first row gives each edge's source node and the second its
  destination. `aggOf x src dst` gathers the source rows of `x` (a negative source index first shifted up by the node
  count), adds each gathered row into its destination node's row of a zero array, and divides every row by the larger of
  that node's in-degree (the ones added per edge) and one. The function is carried whole: both programs apply exactly
  these operations, so nothing about a gather or a scatter is ever opened.
-/
import proofs.«112585_j5463198401302_1_alg».proof.Proof.Gen.KernelIdeal

noncomputable section

namespace Cert.KernelIdeal.Agg

open Cert.KernelIdeal Cert.KernelIdeal.Facts₀ Idealize.ShloMosaic

variable {F : FTy → Type} [FloatOps F]

/-- The edges' source nodes: the first row of the edge list. -/
def srcOf (ei : (⟨S2x1600000, .i32⟩ : BufTy).Contents (Elt F)) : (⟨S1600000, .i32⟩ : BufTy).Contents (Elt F) :=
  shapeCast _ (extractStridedSlice S1x1600000 ![0, 0] ei slices_S2x1600000_S1x1600000_0_0) shapeCasts_S1x1600000_S1600000

/-- The edges' destination nodes: the second row of the edge list. -/
def dstOf (ei : (⟨S2x1600000, .i32⟩ : BufTy).Contents (Elt F)) : (⟨S1600000, .i32⟩ : BufTy).Contents (Elt F) :=
  shapeCast _ (extractStridedSlice S1x1600000 ![1, 0] ei slices_S2x1600000_S1x1600000_1_0) shapeCasts_S1x1600000_S1600000

/-- The mean of the rows of `x` at each node's in-neighbours (the sum where a node has none). -/
def aggOf (x : (⟨S100000x128, .f32⟩ : BufTy).Contents (Elt F)) (src dst : (⟨S1600000, .i32⟩ : BufTy).Contents (Elt F)) :
    (⟨S100000x128, .f32⟩ : BufTy).Contents (Elt F) :=
  Host.divf
    (Host.scatterAdd scatter_S100000x128_S1600000x1_S1600000x128_1_0_0_1
      (broadcastInDim S100000x128 ![] bcast_S_S100000x128 (constant S_ .f32 0x00000000#32))
      (broadcastInDim S1600000x1 ![0] bcast_S1600000_S1600000x1_0 dst)
      (Host.gather gather_S100000x128_S1600000x1_S1600000x128_1_0_n_n_0_1_1128 x
        (broadcastInDim S1600000x1 ![0] bcast_S1600000_S1600000x1_0
          (select (cmpi .slt src (broadcastInDim S1600000 ![] bcast_S_S1600000 (constantI S_ 32 0#32)))
            (addi src (broadcastInDim S1600000 ![] bcast_S_S1600000 (constantI S_ 32 100000#32))) src))))
    (broadcastInDim S100000x128 ![0, 1] bcast_S100000x1_S100000x128_0_1
      (broadcastInDim S100000x1 ![0] bcast_S100000_S100000x1_0
        (maximumf
          (Host.scatterAdd scatter_S100000_S1600000x1_S1600000_n_0_0_1
            (broadcastInDim S100000 ![] bcast_S_S100000 (constant S_ .f32 0x00000000#32))
            (broadcastInDim S1600000x1 ![0] bcast_S1600000_S1600000x1_0 dst)
            (broadcastInDim S1600000 ![] bcast_S_S1600000 (constant S_ .f32 0x3F800000#32)))
          (broadcastInDim S100000 ![] bcast_S_S100000 (constant S_ .f32 0x3F800000#32)))))

end Cert.KernelIdeal.Agg

end
-- ==== Proof.KValue.lean ====
/-
  The kernel program's result as three layers of whole arrays.

  @main alternates stretches of host operations with the three launches. A stretch computes the aggregation of the
  current node features (by the shared function), reshapes the bias to a row, and leaves every other buffer alone; a
  launch replaces its result array by the layer of the arrays it found and leaves every other buffer alone. Following
  the buffer contents from the launch memory through the six boundaries gives the final result array as
      layer₂ (agg h₂) h₂,   h₂ = layer₁ (agg h₁) h₁,   h₁ = layer₀ (agg x) x,
  every weight, bias and the edge list read from the launch memory.
-/
import proofs.«112585_j5463198401302_1_alg».proof.Proof.Gen.KernelIdeal.Frame
import proofs.«112585_j5463198401302_1_alg».proof.Proof.KRegion0
import proofs.«112585_j5463198401302_1_alg».proof.Proof.KRegion1
import proofs.«112585_j5463198401302_1_alg».proof.Proof.KRegion2
import proofs.«112585_j5463198401302_1_alg».proof.Proof.Agg
import Idealize.ShloMosaic.Lib.StableHlo.Run

set_option maxRecDepth 16384

noncomputable section

namespace Cert.KernelIdeal.KValue

open Cert.KernelIdeal Cert.KernelIdeal.Gen Cert.KernelIdeal.Agg Cert.Sage
open Idealize.ShloMosaic Idealize.ShloMosaic.ValueIdx Idealize.ShloMosaic.TcCoe Idealize.SL.Sem Idealize.ShloMosaic.StableHlo

variable (m : (ℓ : Loc nD τ sig) → Buf (Elt Ideal) ℓ) (ρ : Dev nD → PrngReg)

/-- A bias vector reshaped to one row, read at the row's entry `q`: the vector's entry `q`. -/
theorem bias_row (bl : FVec Ideal S128 .f32) (q : Fin 128) :
    shapeCast S1x128 bl shapeCasts_S128_S1x128 (ix2 0 q) = bl (ix1 q) :=
  shapeCast_apply bl shapeCasts_S128_S1x128 (ix2 0 q) (ix1 q) (by
    rw [Shape.rowMajor_val_one, Shape.rowMajor_val_two]; show q.val = 0 * 128 + q.val; omega)

/-! ## Before the first launch -/

set_option maxHeartbeats 4000000 in
/-- The first stretch aggregates the input features. -/
theorem W1_v22 (c : Dev nD) : W1 m ρ c (Proc.devRef .tc main_v22) = aggOf (m ((c : Thread nD τ).loc main_arg0)) (srcOf (m ((c : Thread nD τ).loc main_arg1))) (dstOf (m ((c : Thread nD τ).loc main_arg1))) := by
  dsimp only [W1, hostOps0]
  after_results_simp
  all_goals rfl
/-- … and reshapes the first bias to a row. -/
theorem W1_v23 (c : Dev nD) : W1 m ρ c (Proc.devRef .tc main_v23) = shapeCast S1x128 (m ((c : Thread nD τ).loc main_arg3)) shapeCasts_S128_S1x128 := by
  dsimp only [W1, hostOps0]
  after_results
  all_goals rfl
/-- It also splits the edge list, once for all three layers. -/
theorem W1_v1 (c : Dev nD) : W1 m ρ c (Proc.devRef .tc main_v1) = (srcOf (m ((c : Thread nD τ).loc main_arg1))) := by
  dsimp only [W1, hostOps0]
  after_results
  all_goals rfl
theorem W1_v3 (c : Dev nD) : W1 m ρ c (Proc.devRef .tc main_v3) = (dstOf (m ((c : Thread nD τ).loc main_arg1))) := by
  dsimp only [W1, hostOps0]
  after_results
  all_goals rfl
theorem W1_arg0 (c : Dev nD) : W1 m ρ c (Proc.devRef .tc main_arg0) = (m ((c : Thread nD τ).loc main_arg0)) := by
  dsimp only [W1, hostOps0]
  after_results
  all_goals rfl
theorem W1_arg2 (c : Dev nD) : W1 m ρ c (Proc.devRef .tc main_arg2) = (m ((c : Thread nD τ).loc main_arg2)) := by
  dsimp only [W1, hostOps0]
  after_results
  all_goals rfl
theorem W1_arg4 (c : Dev nD) : W1 m ρ c (Proc.devRef .tc main_arg4) = (m ((c : Thread nD τ).loc main_arg4)) := by
  dsimp only [W1, hostOps0]
  after_results
  all_goals rfl
theorem W1_arg5 (c : Dev nD) : W1 m ρ c (Proc.devRef .tc main_arg5) = (m ((c : Thread nD τ).loc main_arg5)) := by
  dsimp only [W1, hostOps0]
  after_results
  all_goals rfl
theorem W1_arg6 (c : Dev nD) : W1 m ρ c (Proc.devRef .tc main_arg6) = (m ((c : Thread nD τ).loc main_arg6)) := by
  dsimp only [W1, hostOps0]
  after_results
  all_goals rfl
theorem W1_arg7 (c : Dev nD) : W1 m ρ c (Proc.devRef .tc main_arg7) = (m ((c : Thread nD τ).loc main_arg7)) := by
  dsimp only [W1, hostOps0]
  after_results
  all_goals rfl
theorem W1_arg8 (c : Dev nD) : W1 m ρ c (Proc.devRef .tc main_arg8) = (m ((c : Thread nD τ).loc main_arg8)) := by
  dsimp only [W1, hostOps0]
  after_results
  all_goals rfl
theorem W1_arg9 (c : Dev nD) : W1 m ρ c (Proc.devRef .tc main_arg9) = (m ((c : Thread nD τ).loc main_arg9)) := by
  dsimp only [W1, hostOps0]
  after_results
  all_goals rfl
theorem W1_arg10 (c : Dev nD) : W1 m ρ c (Proc.devRef .tc main_arg10) = (m ((c : Thread nD τ).loc main_arg10)) := by
  dsimp only [W1, hostOps0]
  after_results
  all_goals rfl

/-! ## The first launch -/

/-- The first hidden features: the first layer of the input features. -/
def h1 (c : Dev nD) : SN.Idx → EReal :=
  layer relu0 (aggOf (m ((c : Thread nD τ).loc main_arg0)) (srcOf (m ((c : Thread nD τ).loc main_arg1))) (dstOf (m ((c : Thread nD τ).loc main_arg1)))) (m ((c : Thread nD τ).loc main_arg0)) (m ((c : Thread nD τ).loc main_arg2)) (m ((c : Thread nD τ).loc main_arg4)) (fun q => (m ((c : Thread nD τ).loc main_arg3)) (ix1 q))

attribute [local irreducible] Cert.KernelIdeal.Agg.aggOf in
theorem W2_v24 (c : Dev nD) : W2 m ρ c (Proc.devRef .tc main_v24) = h1 m c := by
  refine (W2_arr m ρ c 5).trans ((Region0.final (V1 m ρ) c).trans ?_)
  show layer relu0 (W1 m ρ c (Proc.devRef .tc main_v22)) (W1 m ρ c (Proc.devRef .tc main_arg0)) (W1 m ρ c (Proc.devRef .tc main_arg2)) (W1 m ρ c (Proc.devRef .tc main_arg4))
      (fun q => W1 m ρ c (Proc.devRef .tc main_v23) (ix2 0 q)) = _
  rw [W1_v22, W1_arg0, W1_arg2, W1_arg4, W1_v23]
  exact congrArg (layer relu0 _ _ _ _) (funext fun q => bias_row _ q)

/-- The launch leaves the edge rows and the later layers' weights as they were. -/
theorem W2_v1 (c : Dev nD) : W2 m ρ c (Proc.devRef .tc main_v1) = W1 m ρ c (Proc.devRef .tc main_v1) := W2_of_ne m ρ c main_v1 (by decide)
theorem W2_v3 (c : Dev nD) : W2 m ρ c (Proc.devRef .tc main_v3) = W1 m ρ c (Proc.devRef .tc main_v3) := W2_of_ne m ρ c main_v3 (by decide)
theorem W2_arg5 (c : Dev nD) : W2 m ρ c (Proc.devRef .tc main_arg5) = W1 m ρ c (Proc.devRef .tc main_arg5) := W2_of_ne m ρ c main_arg5 (by decide)
theorem W2_arg6 (c : Dev nD) : W2 m ρ c (Proc.devRef .tc main_arg6) = W1 m ρ c (Proc.devRef .tc main_arg6) := W2_of_ne m ρ c main_arg6 (by decide)
theorem W2_arg7 (c : Dev nD) : W2 m ρ c (Proc.devRef .tc main_arg7) = W1 m ρ c (Proc.devRef .tc main_arg7) := W2_of_ne m ρ c main_arg7 (by decide)
theorem W2_arg8 (c : Dev nD) : W2 m ρ c (Proc.devRef .tc main_arg8) = W1 m ρ c (Proc.devRef .tc main_arg8) := W2_of_ne m ρ c main_arg8 (by decide)
theorem W2_arg9 (c : Dev nD) : W2 m ρ c (Proc.devRef .tc main_arg9) = W1 m ρ c (Proc.devRef .tc main_arg9) := W2_of_ne m ρ c main_arg9 (by decide)
theorem W2_arg10 (c : Dev nD) : W2 m ρ c (Proc.devRef .tc main_arg10) = W1 m ρ c (Proc.devRef .tc main_arg10) := W2_of_ne m ρ c main_arg10 (by decide)

/-! ## Before the second launch -/

set_option maxHeartbeats 4000000 in
/-- The second stretch aggregates the first hidden features. -/
theorem W3_v43 (c : Dev nD) : W3 m ρ c (Proc.devRef .tc main_v43) = aggOf (W2 m ρ c (Proc.devRef .tc main_v24)) (W2 m ρ c (Proc.devRef .tc main_v1)) (W2 m ρ c (Proc.devRef .tc main_v3)) := by
  dsimp only [W3, hostOps1]
  after_results_simp
  all_goals rfl
theorem W3_v44 (c : Dev nD) : W3 m ρ c (Proc.devRef .tc main_v44) = shapeCast S1x128 (W2 m ρ c (Proc.devRef .tc main_arg6)) shapeCasts_S128_S1x128 := by
  dsimp only [W3, hostOps1]
  after_results
  all_goals rfl
theorem W3_v24 (c : Dev nD) : W3 m ρ c (Proc.devRef .tc main_v24) = (W2 m ρ c (Proc.devRef .tc main_v24)) := by
  dsimp only [W3, hostOps1]
  after_results
  all_goals rfl
theorem W3_v1 (c : Dev nD) : W3 m ρ c (Proc.devRef .tc main_v1) = (W2 m ρ c (Proc.devRef .tc main_v1)) := by
  dsimp only [W3, hostOps1]
  after_results
  all_goals rfl
theorem W3_v3 (c : Dev nD) : W3 m ρ c (Proc.devRef .tc main_v3) = (W2 m ρ c (Proc.devRef .tc main_v3)) := by
  dsimp only [W3, hostOps1]
  after_results
  all_goals rfl
theorem W3_arg5 (c : Dev nD) : W3 m ρ c (Proc.devRef .tc main_arg5) = (W2 m ρ c (Proc.devRef .tc main_arg5)) := by
  dsimp only [W3, hostOps1]
  after_results
  all_goals rfl
theorem W3_arg7 (c : Dev nD) : W3 m ρ c (Proc.devRef .tc main_arg7) = (W2 m ρ c (Proc.devRef .tc main_arg7)) := by
  dsimp only [W3, hostOps1]
  after_results
  all_goals rfl
theorem W3_arg8 (c : Dev nD) : W3 m ρ c (Proc.devRef .tc main_arg8) = (W2 m ρ c (Proc.devRef .tc main_arg8)) := by
  dsimp only [W3, hostOps1]
  after_results
  all_goals rfl
theorem W3_arg9 (c : Dev nD) : W3 m ρ c (Proc.devRef .tc main_arg9) = (W2 m ρ c (Proc.devRef .tc main_arg9)) := by
  dsimp only [W3, hostOps1]
  after_results
  all_goals rfl
theorem W3_arg10 (c : Dev nD) : W3 m ρ c (Proc.devRef .tc main_arg10) = (W2 m ρ c (Proc.devRef .tc main_arg10)) := by
  dsimp only [W3, hostOps1]
  after_results
  all_goals rfl

/-! ## The second launch -/

/-- The second hidden features. -/
def h2 (c : Dev nD) : SN.Idx → EReal :=
  layer relu0 (aggOf (h1 m c) (srcOf (m ((c : Thread nD τ).loc main_arg1))) (dstOf (m ((c : Thread nD τ).loc main_arg1)))) (h1 m c) (m ((c : Thread nD τ).loc main_arg5)) (m ((c : Thread nD τ).loc main_arg7)) (fun q => (m ((c : Thread nD τ).loc main_arg6)) (ix1 q))

attribute [local irreducible] Cert.KernelIdeal.Agg.aggOf in
theorem W4_v45 (c : Dev nD) : W4 m ρ c (Proc.devRef .tc main_v45) = h2 m c := by
  refine (W4_arr m ρ c 5).trans ((Region1.final (V3 m ρ) c).trans ?_)
  show layer relu0 (W3 m ρ c (Proc.devRef .tc main_v43)) (W3 m ρ c (Proc.devRef .tc main_v24)) (W3 m ρ c (Proc.devRef .tc main_arg5)) (W3 m ρ c (Proc.devRef .tc main_arg7))
      (fun q => W3 m ρ c (Proc.devRef .tc main_v44) (ix2 0 q)) = _
  rw [W3_v43, W3_v24, W3_arg5, W3_arg7, W3_v44, W2_v24, W2_v1, W2_v3, W2_arg5, W2_arg6, W2_arg7, W1_v1, W1_v3, W1_arg5, W1_arg6, W1_arg7]
  exact congrArg (layer relu0 _ _ _ _) (funext fun q => bias_row _ q)

theorem W4_v1 (c : Dev nD) : W4 m ρ c (Proc.devRef .tc main_v1) = W3 m ρ c (Proc.devRef .tc main_v1) := W4_of_ne m ρ c main_v1 (by decide)
theorem W4_v3 (c : Dev nD) : W4 m ρ c (Proc.devRef .tc main_v3) = W3 m ρ c (Proc.devRef .tc main_v3) := W4_of_ne m ρ c main_v3 (by decide)
theorem W4_arg8 (c : Dev nD) : W4 m ρ c (Proc.devRef .tc main_arg8) = W3 m ρ c (Proc.devRef .tc main_arg8) := W4_of_ne m ρ c main_arg8 (by decide)
theorem W4_arg9 (c : Dev nD) : W4 m ρ c (Proc.devRef .tc main_arg9) = W3 m ρ c (Proc.devRef .tc main_arg9) := W4_of_ne m ρ c main_arg9 (by decide)
theorem W4_arg10 (c : Dev nD) : W4 m ρ c (Proc.devRef .tc main_arg10) = W3 m ρ c (Proc.devRef .tc main_arg10) := W4_of_ne m ρ c main_arg10 (by decide)

/-! ## Before the third launch -/

set_option maxHeartbeats 4000000 in
/-- The third stretch aggregates the second hidden features. -/
theorem W5_v64 (c : Dev nD) : W5 m ρ c (Proc.devRef .tc main_v64) = aggOf (W4 m ρ c (Proc.devRef .tc main_v45)) (W4 m ρ c (Proc.devRef .tc main_v1)) (W4 m ρ c (Proc.devRef .tc main_v3)) := by
  dsimp only [W5, hostOps2]
  after_results_simp
  all_goals rfl
theorem W5_v65 (c : Dev nD) : W5 m ρ c (Proc.devRef .tc main_v65) = shapeCast S1x128 (W4 m ρ c (Proc.devRef .tc main_arg9)) shapeCasts_S128_S1x128 := by
  dsimp only [W5, hostOps2]
  after_results
  all_goals rfl
theorem W5_v45 (c : Dev nD) : W5 m ρ c (Proc.devRef .tc main_v45) = (W4 m ρ c (Proc.devRef .tc main_v45)) := by
  dsimp only [W5, hostOps2]
  after_results
  all_goals rfl
theorem W5_arg8 (c : Dev nD) : W5 m ρ c (Proc.devRef .tc main_arg8) = (W4 m ρ c (Proc.devRef .tc main_arg8)) := by
  dsimp only [W5, hostOps2]
  after_results
  all_goals rfl
theorem W5_arg10 (c : Dev nD) : W5 m ρ c (Proc.devRef .tc main_arg10) = (W4 m ρ c (Proc.devRef .tc main_arg10)) := by
  dsimp only [W5, hostOps2]
  after_results
  all_goals rfl

/-! ## The third launch: the result -/

/-- The network's output: the last layer, without activation, of the second hidden features. -/
def out (c : Dev nD) : SN.Idx → EReal :=
  layer id (aggOf (h2 m c) (srcOf (m ((c : Thread nD τ).loc main_arg1))) (dstOf (m ((c : Thread nD τ).loc main_arg1)))) (h2 m c) (m ((c : Thread nD τ).loc main_arg8)) (m ((c : Thread nD τ).loc main_arg10)) (fun q => (m ((c : Thread nD τ).loc main_arg9)) (ix1 q))

attribute [local irreducible] Cert.KernelIdeal.Agg.aggOf in
/-- THE RESULT ARRAY at the last boundary is the network's output of the launch memory. -/
theorem W6_v66 (c : Dev nD) : W6 m ρ c (Proc.devRef .tc main_v66) = out m c := by
  refine (W6_arr m ρ c 5).trans ((Region2.final (V5 m ρ) c).trans ?_)
  show layer id (W5 m ρ c (Proc.devRef .tc main_v64)) (W5 m ρ c (Proc.devRef .tc main_v45)) (W5 m ρ c (Proc.devRef .tc main_arg8)) (W5 m ρ c (Proc.devRef .tc main_arg10))
      (fun q => W5 m ρ c (Proc.devRef .tc main_v65) (ix2 0 q)) = _
  rw [W5_v64, W5_v45, W5_arg8, W5_arg10, W5_v65, W4_v45, W4_v1, W4_v3, W4_arg8, W4_arg9, W4_arg10,
    W3_v1, W3_v3, W3_arg8, W3_arg9, W3_arg10, W2_v1, W2_v3, W2_arg8, W2_arg9, W2_arg10, W1_v1, W1_v3, W1_arg8, W1_arg9, W1_arg10]
  exact congrArg (layer id _ _ _ _) (funext fun q => bias_row _ q)

end Cert.KernelIdeal.KValue

end
-- ==== Proof.RefValue.lean ====
/-
  The reference's result as three layers of whole arrays.

  The reference applies, three times over, the neighbour aggregation, two whole-array matrix products with the bias
  between them, and (in the first two layers) the maximum with zero. Its run's result term is literally those
  operations nested; read at a node and a feature each matrix product is the sum over the 128 contracted coordinates
  and the twice-broadcast bias is its entry at the feature, so each stage is the layer formula of the specification. The
  aggregation is the kernel program's own chain of operations, so it is identified with the shared function and left whole.
-/
import proofs.«112585_j5463198401302_1_alg».proof.Proof.Gen.ReferenceIdeal.Run
import proofs.«112585_j5463198401302_1_alg».proof.Proof.Spec
import proofs.«112585_j5463198401302_1_alg».proof.Proof.Agg
import Idealize.ShloMosaic.Lib.ValueIdx
import Idealize.ShloMosaic.Lib.Pipeline.Value
import Idealize.ShloMosaic.PureOps.Ideal.Laws

noncomputable section

namespace Cert.ReferenceIdeal.RefValue

open Cert.ReferenceIdeal Cert.ReferenceIdeal.Facts₀ Idealize.ShloMosaic Idealize.ShloMosaic.ValueIdx Idealize.ShloMosaic.TcCoe Idealize.SL.Sem Cert.Sage

variable {F : FTy → Type} [FloatOps F]

/-! ## The reference's stages, in its own operations -/

def srcR (ei : (⟨S2x1600000, .i32⟩ : BufTy).Contents (Elt F)) : (⟨S1600000, .i32⟩ : BufTy).Contents (Elt F) :=
  shapeCast _ (extractStridedSlice S1x1600000 ![0, 0] ei slices_S2x1600000_S1x1600000_0_0) shapeCasts_S1x1600000_S1600000

def dstR (ei : (⟨S2x1600000, .i32⟩ : BufTy).Contents (Elt F)) : (⟨S1600000, .i32⟩ : BufTy).Contents (Elt F) :=
  shapeCast _ (extractStridedSlice S1x1600000 ![1, 0] ei slices_S2x1600000_S1x1600000_1_0) shapeCasts_S1x1600000_S1600000

def aggR (x : (⟨S100000x128, .f32⟩ : BufTy).Contents (Elt F)) (src dst : (⟨S1600000, .i32⟩ : BufTy).Contents (Elt F)) :
    (⟨S100000x128, .f32⟩ : BufTy).Contents (Elt F) :=
  Host.divf
    (Host.scatterAdd scatter_S100000x128_S1600000x1_S1600000x128_1_0_0_1
      (broadcastInDim S100000x128 ![] bcast_S_S100000x128 (constant S_ .f32 0x00000000#32))
      (broadcastInDim S1600000x1 ![0] bcast_S1600000_S1600000x1_0 dst)
      (Host.gather gather_S100000x128_S1600000x1_S1600000x128_1_0_n_n_0_1_1128 x
        (broadcastInDim S1600000x1 ![0] bcast_S1600000_S1600000x1_0
          (select (cmpi .slt src (broadcastInDim S1600000 ![] bcast_S_S1600000 (constantI S_ 32 0#32)))
            (addi src (broadcastInDim S1600000 ![] bcast_S_S1600000 (constantI S_ 32 100000#32))) src))))
    (broadcastInDim S100000x128 ![0, 1] bcast_S100000x1_S100000x128_0_1
      (broadcastInDim S100000x1 ![0] bcast_S100000_S100000x1_0
        (maximumf
          (Host.scatterAdd scatter_S100000_S1600000x1_S1600000_n_0_0_1
            (broadcastInDim S100000 ![] bcast_S_S100000 (constant S_ .f32 0x00000000#32))
            (broadcastInDim S1600000x1 ![0] bcast_S1600000_S1600000x1_0 dst)
            (broadcastInDim S1600000 ![] bcast_S_S1600000 (constant S_ .f32 0x3F800000#32)))
          (broadcastInDim S100000 ![] bcast_S_S100000 (constant S_ .f32 0x3F800000#32)))))

/-- The linear part: aggregated features times `Wl`, plus the bias broadcast to every row, plus the features times `Wr`. -/
def linR (a h : (⟨S100000x128, .f32⟩ : BufTy).Contents (Elt F)) (Wl : (⟨S128x128, .f32⟩ : BufTy).Contents (Elt F))
    (bl : (⟨S128, .f32⟩ : BufTy).Contents (Elt F)) (Wr : (⟨S128x128, .f32⟩ : BufTy).Contents (Elt F)) :
    (⟨S100000x128, .f32⟩ : BufTy).Contents (Elt F) :=
  addf (addf (Host.dotGeneral dot_S100000x128_S128x128_S100000x128_1_0_0_1_n_n none a Wl)
      (broadcastInDim S100000x128 ![0, 1] bcast_S1x128_S100000x128_0_1 (broadcastInDim S1x128 ![1] bcast_S128_S1x128_1 bl)))
    (Host.dotGeneral dot_S100000x128_S128x128_S100000x128_1_0_0_1_n_n none h Wr)

/-- An inner layer: aggregate, linear part, maximum with zero. -/
def hidR (x : (⟨S100000x128, .f32⟩ : BufTy).Contents (Elt F)) (src dst : (⟨S1600000, .i32⟩ : BufTy).Contents (Elt F))
    (Wl : (⟨S128x128, .f32⟩ : BufTy).Contents (Elt F)) (bl : (⟨S128, .f32⟩ : BufTy).Contents (Elt F))
    (Wr : (⟨S128x128, .f32⟩ : BufTy).Contents (Elt F)) : (⟨S100000x128, .f32⟩ : BufTy).Contents (Elt F) :=
  maximumf (linR (aggR x src dst) x Wl bl Wr) (broadcastInDim S100000x128 ![] bcast_S_S100000x128 (constant S_ .f32 0x00000000#32))

/-- The last layer: aggregate and linear part only. -/
def outR (x : (⟨S100000x128, .f32⟩ : BufTy).Contents (Elt F)) (src dst : (⟨S1600000, .i32⟩ : BufTy).Contents (Elt F))
    (Wl : (⟨S128x128, .f32⟩ : BufTy).Contents (Elt F)) (bl : (⟨S128, .f32⟩ : BufTy).Contents (Elt F))
    (Wr : (⟨S128x128, .f32⟩ : BufTy).Contents (Elt F)) : (⟨S100000x128, .f32⟩ : BufTy).Contents (Elt F) :=
  linR (aggR x src dst) x Wl bl Wr

set_option maxRecDepth 8192 in
/-- The run's result term is the three stages nested. -/
theorem res_eq (m : (ℓ : Loc nD τ sig) → Buf (Elt F) ℓ) (c : Dev nD) :
    Cert.ReferenceIdeal.Value.res_main_v80 m c
      = outR (hidR (hidR (m ((c.tc : Thread nD τ).loc main_arg0)) (srcR (m ((c.tc : Thread nD τ).loc main_arg1))) (dstR (m ((c.tc : Thread nD τ).loc main_arg1)))
              (m ((c.tc : Thread nD τ).loc main_arg2)) (m ((c.tc : Thread nD τ).loc main_arg3)) (m ((c.tc : Thread nD τ).loc main_arg4)))
            (srcR (m ((c.tc : Thread nD τ).loc main_arg1))) (dstR (m ((c.tc : Thread nD τ).loc main_arg1)))
            (m ((c.tc : Thread nD τ).loc main_arg5)) (m ((c.tc : Thread nD τ).loc main_arg6)) (m ((c.tc : Thread nD τ).loc main_arg7)))
          (srcR (m ((c.tc : Thread nD τ).loc main_arg1))) (dstR (m ((c.tc : Thread nD τ).loc main_arg1)))
          (m ((c.tc : Thread nD τ).loc main_arg8)) (m ((c.tc : Thread nD τ).loc main_arg9)) (m ((c.tc : Thread nD τ).loc main_arg10)) := by
  unfold Cert.ReferenceIdeal.Value.res_main_v80
  rfl

/-! ## The shared aggregation -/

theorem srcR_eq (ei : (⟨S2x1600000, .i32⟩ : BufTy).Contents (Elt F)) : srcR ei = Cert.KernelIdeal.Agg.srcOf ei := rfl
theorem dstR_eq (ei : (⟨S2x1600000, .i32⟩ : BufTy).Contents (Elt F)) : dstR ei = Cert.KernelIdeal.Agg.dstOf ei := rfl
theorem aggR_eq (x : (⟨S100000x128, .f32⟩ : BufTy).Contents (Elt F)) (src dst : (⟨S1600000, .i32⟩ : BufTy).Contents (Elt F)) :
    aggR x src dst = Cert.KernelIdeal.Agg.aggOf x src dst := rfl

/-! ## A matrix product and the bias, at a node and a feature -/

theorem lhs_0 (i : S100000x128.Idx) (q : dot_S100000x128_S128x128_S100000x128_1_0_0_1_n_n.contr.Idx) :
    (dot_S100000x128_S128x128_S100000x128_1_0_0_1_n_n.lhsIdx i q 0).val = (i 0).val := by
  unfold DotDims.lhsIdx
  rw [dif_neg (show ¬(0 : Fin S100000x128.rank) ∈ dot_S100000x128_S128x128_S100000x128_1_0_0_1_n_n.lhsBatch by decide), dif_pos (show (0 : Fin S100000x128.rank) ∈ dot_S100000x128_S128x128_S100000x128_1_0_0_1_n_n.lhsNonContracting by decide)]
  rfl
theorem lhs_1 (i : S100000x128.Idx) (q : dot_S100000x128_S128x128_S100000x128_1_0_0_1_n_n.contr.Idx) :
    (dot_S100000x128_S128x128_S100000x128_1_0_0_1_n_n.lhsIdx i q 1).val = (q ⟨0, by decide⟩).val :=
  dot_S100000x128_S128x128_S100000x128_1_0_0_1_n_n.lhsIdx_val_of_single rfl i q
theorem rhs_0 (i : S100000x128.Idx) (q : dot_S100000x128_S128x128_S100000x128_1_0_0_1_n_n.contr.Idx) :
    (dot_S100000x128_S128x128_S100000x128_1_0_0_1_n_n.rhsIdx i q 0).val = (q ⟨0, by decide⟩).val :=
  dot_S100000x128_S128x128_S100000x128_1_0_0_1_n_n.rhsIdx_val_of_single rfl i q
theorem rhs_1 (i : S100000x128.Idx) (q : dot_S100000x128_S128x128_S100000x128_1_0_0_1_n_n.contr.Idx) :
    (dot_S100000x128_S128x128_S100000x128_1_0_0_1_n_n.rhsIdx i q 1).val = (i 1).val := by
  unfold DotDims.rhsIdx
  rw [dif_neg (show ¬(1 : Fin S128x128.rank) ∈ dot_S100000x128_S128x128_S100000x128_1_0_0_1_n_n.rhsBatch by decide), dif_pos (show (1 : Fin S128x128.rank) ∈ dot_S100000x128_S128x128_S100000x128_1_0_0_1_n_n.rhsNonContracting by decide)]
  rfl

/-- The whole-array product at node `p`, feature `q`: the sum over the contracted coordinate. -/
theorem dot_apply (l : FVec Ideal S100000x128 .f32) (r : FVec Ideal S128x128 .f32) (p : Fin 100000) (q : Fin 128) :
    Host.dotGeneral dot_S100000x128_S128x128_S100000x128_1_0_0_1_n_n none l r (ix2 p q) = ∑ k : Fin 128, l (ix2 p k) * r (ix2 k q) := by
  show FloatOps.dotGeneral dot_S100000x128_S128x128_S100000x128_1_0_0_1_n_n none .single l r (ix2 p q) = _
  rw [Ideal.dotGeneral_apply, ← Equiv.sum_comp (contrEquiv1 dot_S100000x128_S128x128_S100000x128_1_0_0_1_n_n 128 rfl rfl).symm]
  refine Finset.sum_congr rfl fun k _ => ?_
  have hk := contrEquiv1_symm_val dot_S100000x128_S128x128_S100000x128_1_0_0_1_n_n 128 rfl rfl k
  have el : dot_S100000x128_S128x128_S100000x128_1_0_0_1_n_n.lhsIdx (ix2 p q) ((contrEquiv1 dot_S100000x128_S128x128_S100000x128_1_0_0_1_n_n 128 rfl rfl).symm k) = ix2 p k := funext fun a => Fin.ext (by
    match a with
    | ⟨0, _⟩ => exact lhs_0 _ _
    | ⟨1, _⟩ => exact (lhs_1 _ _).trans hk)
  have er : dot_S100000x128_S128x128_S100000x128_1_0_0_1_n_n.rhsIdx (ix2 p q) ((contrEquiv1 dot_S100000x128_S128x128_S100000x128_1_0_0_1_n_n 128 rfl rfl).symm k) = ix2 k q := funext fun a => Fin.ext (by
    match a with
    | ⟨0, _⟩ => exact (rhs_0 _ _).trans hk
    | ⟨1, _⟩ => exact rhs_1 _ _)
  rw [el, er]

/-- The bias broadcast to a row and then to every node, at node `p`, feature `q`: its entry `q`. -/
theorem bias_apply (bl : FVec Ideal S128 .f32) (p : Fin 100000) (q : Fin 128) :
    broadcastInDim S100000x128 ![0, 1] bcast_S1x128_S100000x128_0_1 (broadcastInDim S1x128 ![1] bcast_S128_S1x128_1 bl) (ix2 p q) = bl (ix1 q) := by
  rw [broadcastInDim_apply ![0, 1] bcast_S1x128_S100000x128_0_1 _ (ix2 p q) (ix2 0 q) (fun a => by
    match a with
    | ⟨0, _⟩ => rfl
    | ⟨1, _⟩ => rfl)]
  exact broadcastInDim_apply ![1] bcast_S128_S1x128_1 bl (ix2 0 q) (ix1 q) (fun a => by
    match a with
    | ⟨0, _⟩ => rfl)

theorem linR_apply (a h : FVec Ideal S100000x128 .f32) (Wl : FVec Ideal S128x128 .f32) (bl : FVec Ideal S128 .f32) (Wr : FVec Ideal S128x128 .f32)
    (p : Fin 100000) (q : Fin 128) :
    linR (F := Ideal) a h Wl bl Wr (ix2 p q) = linAt a h Wl Wr (fun q => bl (ix1 q)) p q := by
  unfold linR linAt
  show (Host.dotGeneral _ none _ _ (ix2 p q) + broadcastInDim S100000x128 _ _ _ (ix2 p q)) + Host.dotGeneral _ none _ _ (ix2 p q) = _
  rw [dot_apply, dot_apply, bias_apply]

/-! ## The stages are the specification's layers -/

/-- The linear part followed by the maximum with zero is the specification's inner layer, for ANY aggregated array `a`. -/
theorem relu_lin_eq (a h : FVec Ideal S100000x128 .f32) (Wl : FVec Ideal S128x128 .f32) (bl : FVec Ideal S128 .f32) (Wr : FVec Ideal S128x128 .f32) :
    maximumf (F := Ideal) (linR (F := Ideal) a h Wl bl Wr) (broadcastInDim S100000x128 ![] bcast_S_S100000x128 (constant (F := Ideal) S_ .f32 0x00000000#32))
      = layer relu0 a h Wl Wr (fun q => bl (ix1 q)) := by
  funext i
  obtain ⟨p, q, rfl⟩ : ∃ (p : Fin 100000) (q : Fin 128), i = ix2 p q := ⟨i 0, i 1, eq_ix2 i⟩
  show max (linR (F := Ideal) a h Wl bl Wr (ix2 p q)) (Ideal.ofBits .f32 0x00000000#32) = relu0 (linAt a h Wl Wr (fun q => bl (ix1 q)) p q)
  rw [linR_apply]
  rfl

/-- The linear part alone is the specification's last layer, for any aggregated array `a`. -/
theorem lin_eq (a h : FVec Ideal S100000x128 .f32) (Wl : FVec Ideal S128x128 .f32) (bl : FVec Ideal S128 .f32) (Wr : FVec Ideal S128x128 .f32) :
    linR (F := Ideal) a h Wl bl Wr = layer id a h Wl Wr (fun q => bl (ix1 q)) := by
  funext i
  obtain ⟨p, q, rfl⟩ : ∃ (p : Fin 100000) (q : Fin 128), i = ix2 p q := ⟨i 0, i 1, eq_ix2 i⟩
  show linR (F := Ideal) a h Wl bl Wr (ix2 p q) = linAt a h Wl Wr (fun q => bl (ix1 q)) p q
  exact linR_apply a h Wl bl Wr p q

-- from here on the aggregation only rides along: nothing may open it
attribute [local irreducible] Cert.KernelIdeal.Agg.aggOf

theorem hidR_eq (x : FVec Ideal S100000x128 .f32) (src dst : (⟨S1600000, .i32⟩ : BufTy).Contents (Elt Ideal))
    (Wl : FVec Ideal S128x128 .f32) (bl : FVec Ideal S128 .f32) (Wr : FVec Ideal S128x128 .f32) :
    hidR (F := Ideal) x src dst Wl bl Wr
      = layer relu0 (Cert.KernelIdeal.Agg.aggOf x src dst) x Wl Wr (fun q => bl (ix1 q)) := by
  unfold hidR
  rw [aggR_eq]
  exact relu_lin_eq _ _ _ _ _

theorem outR_eq (x : FVec Ideal S100000x128 .f32) (src dst : (⟨S1600000, .i32⟩ : BufTy).Contents (Elt Ideal))
    (Wl : FVec Ideal S128x128 .f32) (bl : FVec Ideal S128 .f32) (Wr : FVec Ideal S128x128 .f32) :
    outR (F := Ideal) x src dst Wl bl Wr
      = layer id (Cert.KernelIdeal.Agg.aggOf x src dst) x Wl Wr (fun q => bl (ix1 q)) := by
  unfold outR
  rw [aggR_eq]
  exact lin_eq _ _ _ _ _

end Cert.ReferenceIdeal.RefValue

end
-- ==== Proof.lean ====
/-
  A three-layer mean-aggregation graph network (100000 nodes, 128 features, 1600000 edges) as a tiled kernel program
  against its whole-array reference, over the extended reals.

  Each layer computes  act ((agg(h) · Wl + bl) + h · Wr),  where agg(h) is the mean of h over each node's in-neighbours.
  Both programs compute agg by the same chain of host operations (a gather, two scatter-adds, a maximum and a divide), so
  that chain is carried as one function and never opened. The kernel program computes the rest of a layer in a launch
  over 20 blocks of 5000 rows: two tile matmuls into zero accumulators on operands rounded to bfloat16, the bias row
  broadcast down the tile, and the maximum with zero in the first two layers. On the extended reals the rounding is the
  identity, a tile matmul into zero is the plain sum over the 128 contracted coordinates, and a block's rows see only
  their own rows of the inputs; so each launch leaves the same array as the reference's two whole-array products, and the
  two programs' results are the same three-layer function of the arguments, with the additions grouped identically.
  No algebraic law beyond that is used, so the finiteness of the inputs is never needed.

  The frames are the generated ones (the reference's is its generated run with the result dropped); the idealization
  rewrote nothing, so nothing is owed for it.
-/
import proofs.«112585_j5463198401302_1_alg».proof.Defs
import proofs.«112585_j5463198401302_1_alg».proof.Proof.Gen.Kernel
import proofs.«112585_j5463198401302_1_alg».proof.Proof.Gen.Kernel.Skeleton
import proofs.«112585_j5463198401302_1_alg».proof.Proof.Gen.Kernel.Launch
import proofs.«112585_j5463198401302_1_alg».proof.Proof.Gen.Kernel.Points
import proofs.«112585_j5463198401302_1_alg».proof.Proof.Gen.Kernel.Frame
import proofs.«112585_j5463198401302_1_alg».proof.Proof.Gen.KernelIdeal
import proofs.«112585_j5463198401302_1_alg».proof.Proof.Gen.KernelIdeal.Skeleton
import proofs.«112585_j5463198401302_1_alg».proof.Proof.Gen.KernelIdeal.Launch
import proofs.«112585_j5463198401302_1_alg».proof.Proof.Gen.KernelIdeal.Points
import proofs.«112585_j5463198401302_1_alg».proof.Proof.Gen.KernelIdeal.Frame
import proofs.«112585_j5463198401302_1_alg».proof.Proof.Gen.ReferenceIdeal
import proofs.«112585_j5463198401302_1_alg».proof.Proof.Gen.ReferenceIdeal.Run
import proofs.«112585_j5463198401302_1_alg».proof.Proof.Gen.Pre_finite_inputs
import proofs.«112585_j5463198401302_1_alg».proof.Proof.KRun
import proofs.«112585_j5463198401302_1_alg».proof.Proof.KValue
import proofs.«112585_j5463198401302_1_alg».proof.Proof.RefValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

-- the aggregation only rides along: nothing here may open it
attribute [local irreducible] Cert.KernelIdeal.Agg.aggOf

/-- Both runs end with the result array at the three-layer function of the kernel program's launch memory: the kernel
    program's by following its buffers through the launches, the reference's by reading its result term stage by stage
    and rewriting its arguments by the agreement of the two memories. -/
theorem algebraic : Cert.algebraic_KernelIdeal_ReferenceIdeal := by
  intro m ρ m' ρ' _ hagree
  refine ⟨fun c => Cert.KernelIdeal.KValue.out m c, ?_, ?_⟩
  · exact (θ_run Cert.KernelIdeal.defs _ _).mono
      (fun r h c => ⟨((h c).1).trans (Cert.KernelIdeal.KValue.W6_v66 m ρ c), (h c).2⟩)
      (Cert.KernelIdeal.KRun.run (F := Ideal) m ρ)
  · refine (θ_run Cert.ReferenceIdeal.defs _ _).mono (fun r h c => ⟨(h c).1.trans ?_, (h c).2⟩)
      (Cert.ReferenceIdeal.Value.run (F := Ideal) m' ρ')
    obtain ⟨a0, a1, a2, a3, a4, a5, a6, a7, a8, a9, a10⟩ := hagree c
    rw [Cert.ReferenceIdeal.RefValue.res_eq]
    simp only [Cert.ReferenceIdeal.RefValue.outR_eq, Cert.ReferenceIdeal.RefValue.hidR_eq,
      Cert.ReferenceIdeal.RefValue.srcR_eq, Cert.ReferenceIdeal.RefValue.dstR_eq]
    rw [a0, a1, a2, a3, a4, a5, a6, a7, a8, a9, a10]
    rfl

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
